-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S11008x4096 : Shape := ⟨2, ![11008, 4096]⟩
abbrev S11008x64 : Shape := ⟨2, ![11008, 64]⟩
abbrev S16x4096 : Shape := ⟨2, ![16, 4096]⟩
abbrev S11008x16 : Shape := ⟨2, ![11008, 16]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S11008x64 : S_.BroadcastsInDim S11008x64 (![] : Fin 0 → Fin S11008x64.rank)
  reducesTo_S11008x64_S_d0_1 : S11008x64.ReducesTo [0, 1] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg1 : IVec S11008x4096 32) (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  let main_c_6 : IVec S_ 32 := constantI S_ 32 0#32
  let main_v19 : IVec S11008x4096 32 := broadcastInDim S11008x4096 ![] bcast_S_S11008x4096 main_c_6
  let main_v20 : IVec S11008x4096 1 := cmpi .sge main_arg1 main_v19
  let main_c_7 : IVec S_ 32 := constantI S_ 32 16#32
  let main_v21 : IVec S11008x4096 32 := broadcastInDim S11008x4096 ![] bcast_S_S11008x4096 main_c_7
  let main_v22 : IVec S11008x4096 1 := cmpi .slt main_arg1 main_v21
  let main_v23 : IVec S11008x4096 1 := andi main_v20 main_v22
  let main_c_8 : IVec S_ 1 := constantI S_ 1 1#1
  let main_v24 : IVec S_ 1 := (fun x v => Host.reduce IntOp.andi x v reducesTo_S11008x4096_S_d0_1 h_S_) main_v23 main_c_8
  let main_v25 : IVec S_ 1 := andi main_v18 main_v24
  main_v25

def fn {F : FTy → Type} [FloatOps F] (main_arg0 : FVec F S256x4096 .f32) (main_arg1 : IVec S11008x4096 32) (main_arg2 : FVec F S11008x64 .f32) (main_arg3 : FVec F S16x4096 .f32) (main_arg4 : FVec F S11008x16 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S11008x64 .f32 := Host.absf main_arg2
  let main_cst_0 : FVec F S_ .f32 := constant S_ .f32 0x7F800000#32
  let main_v5 : FVec F S11008x64 .f32 := broadcastInDim S11008x64 ![] bcast_S_S11008x64 main_cst_0
  let main_v6 : IVec S11008x64 1 := cmpf .olt main_v4 main_v5
  let main_c_1 : IVec S_ 1 := constantI S_ 1 1#1
  let main_v7 : IVec S_ 1 := (fun x v => Host.reduce IntOp.andi x v reducesTo_S11008x64_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S11008x16 .f32 := Host.absf main_arg4
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_arg1 main_v13 main_v16
-- ==== Kernel.lean ====
abbrev S256x4096 : Shape := ⟨2, ![256, 4096]⟩
abbrev S11008x4096 : Shape := ⟨2, ![11008, 4096]⟩
abbrev S11008x64 : Shape := ⟨2, ![11008, 64]⟩
abbrev S16x4096 : Shape := ⟨2, ![16, 4096]⟩
abbrev S11008x16 : Shape := ⟨2, ![11008, 16]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩
abbrev S64x4096 : Shape := ⟨2, ![64, 4096]⟩
abbrev S4096x16 : Shape := ⟨2, ![4096, 16]⟩
abbrev S256x16 : Shape := ⟨2, ![256, 16]⟩
abbrev S256x11008 : Shape := ⟨2, ![256, 11008]⟩
abbrev S256x64 : Shape := ⟨2, ![256, 64]⟩
abbrev S256x256 : Shape := ⟨2, ![256, 256]⟩
abbrev S256x512 : Shape := ⟨2, ![256, 512]⟩
abbrev S64x512 : Shape := ⟨2, ![64, 512]⟩
abbrev S4096x256 : Shape := ⟨2, ![4096, 256]⟩
abbrev S16x256 : Shape := ⟨2, ![16, 256]⟩

abbrev nBuf : Space → Nat
  | .hbm => 40
  | .vmem => 12
  | .smem => 0
  | _ => 0

abbrev bufTy : (tb : Table) → Fin (tcTables nBuf tb) → BufTy
  | .hbm, ⟨0, _⟩ => ⟨S256x4096, .f32⟩
  | .hbm, ⟨1, _⟩ => ⟨S11008x4096, .i32⟩
  | .hbm, ⟨2, _⟩ => ⟨S11008x64, .f32⟩
  | .hbm, ⟨3, _⟩ => ⟨S16x4096, .f32⟩
  | .hbm, ⟨4, _⟩ => ⟨S11008x16, .f32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S64, .i32⟩
  | .hbm, ⟨25, _⟩ => ⟨S64x1, .i32⟩
  | .hbm, ⟨26, _⟩ => ⟨S1x4096, .i32⟩
  | .hbm, ⟨27, _⟩ => ⟨S64x4096, .i32⟩
  | .hbm, ⟨28, _⟩ => ⟨S64x4096, .i32⟩
  | .hbm, ⟨29, _⟩ => ⟨S64x4096, .i1⟩
  | .hbm, ⟨30, _⟩ => ⟨S64x4096, .f32⟩
  | .hbm, ⟨31, _⟩ => ⟨S256x4096, .bf16⟩
  | .hbm, ⟨32, _⟩ => ⟨S4096x16, .f32⟩
  | .hbm, ⟨33, _⟩ => ⟨S256x16, .f32⟩
  | .hbm, ⟨34, _⟩ => ⟨S_, .f32⟩
  | .hbm, ⟨35, _⟩ => ⟨S256x16, .f32⟩
  | .hbm, ⟨36, _⟩ => ⟨S256x16, .f32⟩
  | .hbm, ⟨37, _⟩ => ⟨S256x16, .bf16⟩
  | .hbm, ⟨38, _⟩ => ⟨S11008x16, .bf16⟩
  | .hbm, ⟨39, _⟩ => ⟨S256x11008, .f32⟩
  | .local _ .vmem, ⟨0, _⟩ => ⟨S256x4096, .bf16⟩
  | .local _ .vmem, ⟨1, _⟩ => ⟨S256x4096, .i32⟩
  | .local _ .vmem, ⟨2, _⟩ => ⟨S256x4096, .i32⟩
  | .local _ .vmem, ⟨3, _⟩ => ⟨S256x64, .f32⟩
  | .local _ .vmem, ⟨4, _⟩ => ⟨S256x64, .f32⟩
  | .local _ .vmem, ⟨5, _⟩ => ⟨S256x16, .bf16⟩
  | .local _ .vmem, ⟨6, _⟩ => ⟨S256x16, .bf16⟩
  | .local _ .vmem, ⟨7, _⟩ => ⟨S256x16, .bf16⟩
  | .local _ .vmem, ⟨8, _⟩ => ⟨S64x4096, .f32⟩
  | .local _ .vmem, ⟨9, _⟩ => ⟨S256x256, .f32⟩
  | .local _ .vmem, ⟨10, _⟩ => ⟨S256x256, .f32⟩
  | .local _ .vmem, ⟨11, _⟩ => ⟨S256x4096, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![43], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v15 : BitVec 32 := Scalar.muli arg9 c512_i32
  v15
def k0_off1 (k0_t1 : Fin k0_t1_loop.trips) : Fin 2 → Nat :=
  let c0_13 : Index := 0#32
  let c0_i32 : BitVec 32 := 0#32
  let c1_i32 : BitVec 32 := 1#32
  let arg9 : BitVec 32 := Scf.iv c0_i32 c1_i32 k0_t1
  let c512_i32 : BitVec 32 := 512#32
  let v15 : BitVec 32 := Scalar.muli arg9 c512_i32
  let v16 : BitVec 32 := v15
  let v17 : Index := Scalar.indexCast v16
  ![0, v17.toNat]
def k0_off2 (k0_t1 : Fin k0_t1_loop.trips) : Fin 2 → Nat :=
  let c0_36 : Index := 0#32
  let c0_i32 : BitVec 32 := 0#32
  let c1_i32 : BitVec 32 := 1#32
  let arg9 : BitVec 32 := Scf.iv c0_i32 c1_i32 k0_t1
  let c512_i32 : BitVec 32 := 512#32
  let v15 : BitVec 32 := Scalar.muli arg9 c512_i32
  let v16 : BitVec 32 := v15
  let v66 : Index := Scalar.indexCast v16
  ![0, v66.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S4096 : S_.BroadcastsInDim S4096 (![] : Fin 0 → Fin S4096.rank)
  bcast_S64_S64x1_0 : S64.BroadcastsInDim S64x1 (![0] : Fin 1 → Fin S64x1.rank)
  bcast_S4096_S1x4096_1 : S4096.BroadcastsInDim S1x4096 (![1] : Fin 1 → Fin S1x4096.rank)
  bcast_S64x1_S64x4096_0_1 : S64x1.BroadcastsInDim S64x4096 (![0, 1] : Fin 2 → Fin S64x4096.rank)
  bcast_S1x4096_S64x4096_0_1 : S1x4096.BroadcastsInDim S64x4096 (![0, 1] : Fin 2 → Fin S64x4096.rank)
  bitsLt_bf16_f32 : FTy.bits .bf16 < FTy.bits .f32
  transposes_S16x4096_S4096x16_1_0 : S16x4096.Transposes [1, 0] S4096x16
  bcast_S_S256x16 : S_.BroadcastsInDim S256x16 (![] : Fin 0 → Fin S256x16.rank)
  inb_S256x64_S256x64_0_0 : ∀ a, (![0, 0] : Fin 2 → Nat) a + S256x64.size a ≤ S256x64.size a
  h_S256x64 : 0 < S256x64.numel
  h_S256x512 : 0 < S256x512.numel
  h_S64x512 : 0 < S64x512.numel
  shapeCasts_S64x512_S64x512 : S64x512.ShapeCasts S64x512
  shapeCasts_S256x512_S256x512 : S256x512.ShapeCasts S256x512
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  transposes_S256x16_p1_0_S16x256 : S256x16.Transposes [1, 0] S16x256
  inb_S256x256_S256x256_0_0 : ∀ a, (![0, 0] : Fin 2 → Nat) a + S256x256.size a ≤ S256x256.size a
  h_S256x256 : 0 < S256x256.numel
  dot_S256x4096_S4096x16_S256x16_1_0_0_1_n_n_wf : DotDims.WF S256x4096 S4096x16 S256x16 [1] [0] [0] [1] [] []
  dot_S256x64_S64x512_S256x512_1_0_0_1_n_n_wf : DotDims.WF S256x64 S64x512 S256x512 [1] [0] [0] [1] [] []
  dot_S256x4096_S4096x256_S256x256_1_0_0_1_n_n_wf : DotDims.WF S256x4096 S4096x256 S256x256 [1] [0] [0] [1] [] []
  dot_S256x16_S16x256_S256x256_1_0_0_1_n_n_wf : DotDims.WF S256x16 S16x256 S256x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S256x512.size a ≤ S256x4096.size a
  k0_off2_inb : ∀ k0_t1 : Fin k0_t1_loop.trips, ∀ a, (k0_off2 k0_t1) a + S64x512.size a ≤ S64x4096.size a
  k0_off1_packedbf16 : ∀ k0_t1 : Fin k0_t1_loop.trips, (Rect.unit (s := S256x4096) (k0_off1 k0_t1) S256x512.size (k0_off1_inb k0_t1)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S11008x64.size a
  hwx0_2 : ∀ i : grid0.Coords, EltTy.bits .f32 = 32 ∨ (Rect.block (s := S11008x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .bf16 = 32 ∨ (Rect.block (s := S256x16) S256x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S11008x16.size a
  hwx0_4 : ∀ i : grid0.Coords, EltTy.bits .bf16 = 32 ∨ (Rect.block (s := S11008x16) S256x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S64x4096.size a
  hwx0_5 : ∀ i : grid0.Coords, EltTy.bits .f32 = 32 ∨ (Rect.block (s := S64x4096) S64x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x11008.size a
  hwx0_6 : ∀ i : grid0.Coords, EltTy.bits .f32 = 32 ∨ (Rect.block (s := S256x11008) S256x256.size (cc0_transform_6 i) (hinb0_6 i)).WholeWords (EltTy.packing .f32)

variable [Facts₀]

def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x16_S16x256_S256x256_1_0_0_1_n_n : DotDims S256x16 S16x256 S256x256 where
  lhsContracting := [1]
  rhsContracting := [0]
  lhsNonContracting := [0]
  rhsNonContracting := [1]
  lhsBatch := []
  rhsBatch := []
  wf := dot_S256x16_S16x256_S256x256_1_0_0_1_n_n_wf

abbrev win0_0 : Pipeline.Window sig grid0 :=
  Pipeline.Window.ofSpec (Memref.whole main_v9) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x4096 : Shape := ⟨2, ![256, 4096]⟩
abbrev S11008x4096 : Shape := ⟨2, ![11008, 4096]⟩
abbrev S11008x64 : Shape := ⟨2, ![11008, 64]⟩
abbrev S16x4096 : Shape := ⟨2, ![16, 4096]⟩
abbrev S11008x16 : Shape := ⟨2, ![11008, 16]⟩
abbrev S16 : Shape := ⟨1, ![16]⟩
abbrev S_ : Shape := ⟨0, ![]⟩
abbrev S11008x4096x1 : Shape := ⟨3, ![11008, 4096, 1]⟩
abbrev S11008x64x64 : Shape := ⟨3, ![11008, 64, 64]⟩
abbrev S11008x64x1 : Shape := ⟨3, ![11008, 64, 1]⟩
abbrev S4096x11008 : Shape := ⟨2, ![4096, 11008]⟩
abbrev S256x11008 : Shape := ⟨2, ![256, 11008]⟩
abbrev S4096x16 : Shape := ⟨2, ![4096, 16]⟩
abbrev S256x16 : Shape := ⟨2, ![256, 16]⟩
abbrev S16x11008 : Shape := ⟨2, ![16, 11008]⟩

abbrev nBuf : Space → Nat
  | .hbm => 30
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S11008x4096, .i32⟩
  | .hbm, ⟨2, _⟩ => ⟨S11008x64, .f32⟩
  | .hbm, ⟨3, _⟩ => ⟨S16x4096, .f32⟩
  | .hbm, ⟨4, _⟩ => ⟨S11008x16, .f32⟩
  | .hbm, ⟨5, _⟩ => ⟨S16, .f32⟩
  | .hbm, ⟨6, _⟩ => ⟨S_, .i32⟩
  | .hbm, ⟨7, _⟩ => ⟨S11008x4096, .i32⟩
  | .hbm, ⟨8, _⟩ => ⟨S11008x4096, .i1⟩
  | .hbm, ⟨9, _⟩ => ⟨S_, .i32⟩
  | .hbm, ⟨10, _⟩ => ⟨S11008x4096, .i32⟩
  | .hbm, ⟨11, _⟩ => ⟨S11008x4096, .i32⟩
  | .hbm, ⟨12, _⟩ => ⟨S11008x4096, .i32⟩
  | .hbm, ⟨13, _⟩ => ⟨S11008x4096x1, .i32⟩
  | .hbm, ⟨14, _⟩ => ⟨S11008x4096, .f32⟩
  | .hbm, ⟨15, _⟩ => ⟨S11008x64x64, .f32⟩
  | .hbm, ⟨16, _⟩ => ⟨S11008x64x1, .f32⟩
  | .hbm, ⟨17, _⟩ => ⟨S11008x64x64, .f32⟩
  | .hbm, ⟨18, _⟩ => ⟨S11008x64x64, .f32⟩
  | .hbm, ⟨19, _⟩ => ⟨S11008x4096, .f32⟩
  | .hbm, ⟨20, _⟩ => ⟨S4096x11008, .f32⟩
  | .hbm, ⟨21, _⟩ => ⟨S256x11008, .f32⟩
  | .hbm, ⟨22, _⟩ => ⟨S4096x16, .f32⟩
  | .hbm, ⟨23, _⟩ => ⟨S256x16, .f32⟩
  | .hbm, ⟨24, _⟩ => ⟨S16x11008, .f32⟩
  | .hbm, ⟨25, _⟩ => ⟨S256x11008, .f32⟩
  | .hbm, ⟨26, _⟩ => ⟨S_, .f32⟩
  | .hbm, ⟨27, _⟩ => ⟨S256x11008, .f32⟩
  | .hbm, ⟨28, _⟩ => ⟨S256x11008, .f32⟩
  | .hbm, ⟨29, _⟩ => ⟨S256x11008, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008x4096_S11008x4096x1_0_1 : S11008x4096.BroadcastsInDim S11008x4096x1 (![0, 1] : Fin 2 → Fin S11008x4096x1.rank)
  shapeCasts_S11008x4096_S11008x64x64 : S11008x4096.ShapeCasts S11008x64x64
  bcast_S11008x64_S11008x64x1_0_1 : S11008x64.BroadcastsInDim S11008x64x1 (![0, 1] : Fin 2 → Fin S11008x64x1.rank)
  bcast_S11008x64x1_S11008x64x64_0_1_2 : S11008x64x1.BroadcastsInDim S11008x64x64 (![0, 1, 2] : Fin 3 → Fin S11008x64x64.rank)
  shapeCasts_S11008x64x64_S11008x4096 : S11008x64x64.ShapeCasts S11008x4096
  transposes_S11008x4096_S4096x11008_1_0 : S11008x4096.Transposes [1, 0] S4096x11008
  transposes_S16x4096_S4096x16_1_0 : S16x4096.Transposes [1, 0] S4096x16
  transposes_S11008x16_S16x11008_1_0 : S11008x16.Transposes [1, 0] S16x11008
  bcast_S_S256x11008 : S_.BroadcastsInDim S256x11008 (![] : Fin 0 → Fin S256x11008.rank)
  gather_S16_S11008x4096x1_S11008x4096_n_0_n_n_0_2_1_wf : GatherDims.WF S16 S11008x4096x1 S11008x4096 [] [0] [] [0] [] 2 ![1]
  dot_S256x4096_S4096x11008_S256x11008_1_0_0_1_n_n_wf : DotDims.WF S256x4096 S4096x11008 S256x11008 [1] [0] [0] [1] [] []
  dot_S256x4096_S4096x16_S256x16_1_0_0_1_n_n_wf : DotDims.WF S256x4096 S4096x16 S256x16 [1] [0] [0] [1] [] []
  dot_S256x16_S16x11008_S256x11008_1_0_0_1_n_n_wf : DotDims.WF S256x16 S16x11008 S256x11008 [1] [0] [0] [1] [] []

variable [Facts₀]

def gather_S16_S11008x4096x1_S11008x4096_n_0_n_n_0_2_1 : GatherDims S16 S11008x4096x1 S11008x4096 where
  offsetDims := []
  collapsedSliceDims := [0]
  operandBatchingDims := []
  startIndicesBatchingDims := []
  startIndexMap := [0]
  indexVectorDim := 2
  sliceSizes := ![1]
  wf := gather_S16_S11008x4096x1_S11008x4096_n_0_n_n_0_2_1_wf
def dot_S256x4096_S4096x11008_S256x11008_1_0_0_1_n_n : DotDims S256x4096 S4096x11008 S256x11008 where
  lhsContracting := [1]
  rhsContracting := [0]
  lhsNonContracting := [0]
  rhsNonContracting := [1]
  lhsBatch := []
  rhsBatch := []
  wf := dot_S256x4096_S4096x11008_S256x11008_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x11008_S256x11008_1_0_0_1_n_n : DotDims S256x16 S16x11008 S256x11008 where
  lhsContracting := [1]
  rhsContracting := [0]
  lhsNonContracting := [0]
  rhsNonContracting := [1]
  lhsBatch := []
  rhsBatch := []
  wf := dot_S256x16_S16x11008_S256x11008_1_0_0_1_n_n_wf

class Facts : Prop extends Facts₀ where

variable [Facts]
-- ==== Proof.Lora.TripK.lean ====
/-
  The loop that fills the scratch, read as pieces. The scratch is a [256, 4096] array; trip k of the eight-trip loop
  stores one [256, 512] chunk at columns 512·k … 512·k + 511, computed from the chunk of codes and the chunk of the 0/1
  selector at the same columns and from the row scales. So the eight chunks tile the scratch, and what is read back after the
  loop does not depend on what the scratch held before.
-/
import proofs.«424216_j20675972563492_3_alg».proof.Proof.Gen.Kernel.Loops
import Idealize.ShloMosaic.Lib.ValueIdx

set_option maxRecDepth 16384

noncomputable section

namespace Cert.Kernel.Trip

open Cert.Kernel Cert.Kernel.Gen
open Idealize.ShloMosaic Idealize.ShloMosaic.TcCoe Idealize.SL.Sem

variable {F : FTy → Type} [FloatOps F]

/-- The loop makes eight trips. -/
theorem trips_eq : k0_t1_loop.trips = 8 := by decide +kernel

/-- The chunk of codes trip k loads. -/
abbrev codesAt (arg2 : Memref sig .tc .vmem S256x4096 .i32) (X_arg2 : BufTy.Contents (Elt F) arg2.view.ty)
    (k : Fin k0_t1_loop.trips) : Vec F S256x512 .i32 :=
  View.readAt (Elt F) arg2.view (Rect.unit (s := S256x4096) (k0_off1 k) S256x512.size (k0_off1_inb k)).toLoadRect X_arg2

/-- The chunk of the selector trip k loads. -/
abbrev selAt (arg6 : Memref sig .tc .vmem S64x4096 .f32) (X_arg6 : BufTy.Contents (Elt F) arg6.view.ty)
    (k : Fin k0_t1_loop.trips) : Vec F S64x512 .f32 :=
  View.readAt (Elt F) arg6.view (Rect.unit (s := S64x4096) (k0_off2 k) S64x512.size (k0_off2_inb k)).toLoadRect X_arg6

/-- The chunk trip k stores: the body's first payload of the scales and of the two chunks it loads. -/
def chunk (v0 : Vec F S256x64 .f32) (arg2 : Memref sig .tc .vmem S256x4096 .i32) (X_arg2 : BufTy.Contents (Elt F) arg2.view.ty)
    (arg6 : Memref sig .tc .vmem S64x4096 .f32) (X_arg6 : BufTy.Contents (Elt F) arg6.view.ty) (k : Fin k0_t1_loop.trips) :
    FVec F S256x512 .bf16 :=
  k0_pay1 v0 (k0_pay3 (codesAt arg2 X_arg2 k)) (k0_pay4 (codesAt arg2 X_arg2 k)) (k0_pay5 (codesAt arg2 X_arg2 k))
    (k0_pay6 (codesAt arg2 X_arg2 k)) (k0_pay7 (codesAt arg2 X_arg2 k)) (k0_pay8 (codesAt arg2 X_arg2 k))
    (k0_pay9 (codesAt arg2 X_arg2 k)) (k0_pay10 (codesAt arg2 X_arg2 k)) (k0_pay11 (codesAt arg2 X_arg2 k))
    (k0_pay12 (F := F)) (k0_pay13 (F := F)) (selAt arg6 X_arg6 k)

section
variable (𝒱 : Variants) (c : Dev nD) (bd : Option 𝒱.V) (i : grid0.Coords) (arg1 : Memref sig .tc .vmem S256x4096 .bf16) (harg1 : arg1.IsWhole) (arg2 : Memref sig .tc .vmem S256x4096 .i32) (harg2 : arg2.IsWhole) (arg3 : Memref sig .tc .vmem S256x64 .f32) (harg3 : arg3.IsWhole) (arg4 : Memref sig .tc .vmem S256x16 .bf16) (harg4 : arg4.IsWhole) (arg5 : Memref sig .tc .vmem S256x16 .bf16) (harg5 : arg5.IsWhole) (arg6 : Memref sig .tc .vmem S64x4096 .f32) (harg6 : arg6.IsWhole) (arg7 : Memref sig .tc .vmem S256x256 .f32) (harg7 : arg7.IsWhole) (arg8 : Memref sig .tc .vmem S256x4096 .bf16) (harg8 : arg8.IsWhole) (v0 : Vec F S256x64 .f32) (X_arg2 : BufTy.Contents (Elt F) arg2.view.ty) (X_arg6 : BufTy.Contents (Elt F) arg6.view.ty)

/-- One trip writes one piece: its chunk, at its columns. -/
theorem tripL_eq (k : Fin k0_t1_loop.trips) :
    tripL_k0_t1 (F := F) 𝒱 c bd i arg1 harg1 arg2 harg2 arg3 harg3 arg4 harg4 arg5 harg5 arg6 harg6 arg7 harg7 arg8 harg8 v0 X_arg2 X_arg6 k
      = [⟨Rect.unit (s := S256x4096) (k0_off1 k) S256x512.size (k0_off1_inb k), chunk v0 arg2 X_arg2 arg6 X_arg6 k⟩] := by
  unfold tripL_k0_t1 trip_k0_t1
  rfl

/-- A trip's piece stays in the list of the pieces of the trips before any later trip. -/
theorem tripL_sub_pb (k : Fin k0_t1_loop.trips) :
    ∀ n : ℕ, n ≤ k0_t1_loop.trips → k.val < n →
      ∀ p ∈ tripL_k0_t1 (F := F) 𝒱 c bd i arg1 harg1 arg2 harg2 arg3 harg3 arg4 harg4 arg5 harg5 arg6 harg6 arg7 harg7 arg8 harg8 v0 X_arg2 X_arg6 k,
        p ∈ pb_k0_t1 (F := F) 𝒱 c bd i arg1 harg1 arg2 harg2 arg3 harg3 arg4 harg4 arg5 harg5 arg6 harg6 arg7 harg7 arg8 harg8 v0 X_arg2 X_arg6 n
  | 0, _, hk => absurd hk (Nat.not_lt_zero _)
  | n + 1, hn, hk => fun p hp => by
    have e := pb_k0_t1_succ (F := F) 𝒱 c bd i arg1 harg1 arg2 harg2 arg3 harg3 arg4 harg4 arg5 harg5 arg6 harg6 arg7 harg7 arg8 harg8 v0 X_arg2 X_arg6 ⟨n, hn⟩
    rw [show (⟨n, hn⟩ : Fin k0_t1_loop.trips).val + 1 = n + 1 from rfl] at e
    rw [e, List.mem_append]
    by_cases hkn : k.val = n
    · left
      have : k = ⟨n, hn⟩ := Fin.ext hkn
      rw [← this]; exact hp
    · right
      exact tripL_sub_pb k n (Nat.le_of_succ_le hn) (by omega) p hp

/-- The eight chunks cover the scratch: index (r, q) lies in the chunk of trip q / 512. -/
theorem scratch_cover (y : S256x4096.Idx) :
    ∃ p ∈ pb_k0_t1 (F := F) 𝒱 c bd i arg1 harg1 arg2 harg2 arg3 harg3 arg4 harg4 arg5 harg5 arg6 harg6 arg7 harg7 arg8 harg8 v0 X_arg2 X_arg6 k0_t1_loop.trips, y ∈ p.1.set := by
  have h0 : (y 0).val < 256 := Idealize.ShloMosaic.ValueIdx.idx2_lt0 y
  have h1 : (y 1).val < 4096 := Idealize.ShloMosaic.ValueIdx.idx2_lt1 y
  have hk : (y 1).val / 512 < k0_t1_loop.trips := by rw [trips_eq]; omega
  refine ⟨_, tripL_sub_pb 𝒱 c bd i arg1 harg1 arg2 harg2 arg3 harg3 arg4 harg4 arg5 harg5 arg6 harg6 arg7 harg7 arg8 harg8 v0 X_arg2 X_arg6 ⟨(y 1).val / 512, hk⟩ _ le_rfl hk _
    (by rw [tripL_eq]; exact List.mem_singleton_self _), ?_⟩
  rw [Rect.mem_set_unit, k0_off1_eq]
  intro a
  match a with
  | ⟨0, _⟩ => exact ⟨Nat.zero_le _, by show (y 0).val < 0 + 256; omega⟩
  | ⟨1, _⟩ =>
    refine ⟨?_, ?_⟩
    · show 512 * ((y 1).val / 512) ≤ (y 1).val; omega
    · show (y 1).val < 512 * ((y 1).val / 512) + 512; omega

end

end Cert.Kernel.Trip

end
-- ==== Proof.Lora.TripKI.lean ====
/-
  The loop that fills the scratch, read as pieces. The scratch is a [256, 4096] array; trip k of the eight-trip loop
  stores one [256, 512] chunk at columns 512·k … 512·k + 511, computed from the chunk of codes and the chunk of the 0/1
  selector at the same columns and from the row scales. So the eight chunks tile the scratch, and what is read back after the
  loop does not depend on what the scratch held before.
-/
import proofs.«424216_j20675972563492_3_alg».proof.Proof.Gen.KernelIdeal.Loops
import Idealize.ShloMosaic.Lib.ValueIdx

set_option maxRecDepth 16384

noncomputable section

namespace Cert.KernelIdeal.Trip

open Cert.KernelIdeal Cert.KernelIdeal.Gen
open Idealize.ShloMosaic Idealize.ShloMosaic.TcCoe Idealize.SL.Sem

variable {F : FTy → Type} [FloatOps F]

/-- The loop makes eight trips. -/
theorem trips_eq : k0_t1_loop.trips = 8 := by decide +kernel

/-- The chunk of codes trip k loads. -/
abbrev codesAt (arg2 : Memref sig .tc .vmem S256x4096 .i32) (X_arg2 : BufTy.Contents (Elt F) arg2.view.ty)
    (k : Fin k0_t1_loop.trips) : Vec F S256x512 .i32 :=
  View.readAt (Elt F) arg2.view (Rect.unit (s := S256x4096) (k0_off1 k) S256x512.size (k0_off1_inb k)).toLoadRect X_arg2

/-- The chunk of the selector trip k loads. -/
abbrev selAt (arg6 : Memref sig .tc .vmem S64x4096 .f32) (X_arg6 : BufTy.Contents (Elt F) arg6.view.ty)
    (k : Fin k0_t1_loop.trips) : Vec F S64x512 .f32 :=
  View.readAt (Elt F) arg6.view (Rect.unit (s := S64x4096) (k0_off2 k) S64x512.size (k0_off2_inb k)).toLoadRect X_arg6

/-- The chunk trip k stores: the body's first payload of the scales and of the two chunks it loads. -/
def chunk (v0 : Vec F S256x64 .f32) (arg2 : Memref sig .tc .vmem S256x4096 .i32) (X_arg2 : BufTy.Contents (Elt F) arg2.view.ty)
    (arg6 : Memref sig .tc .vmem S64x4096 .f32) (X_arg6 : BufTy.Contents (Elt F) arg6.view.ty) (k : Fin k0_t1_loop.trips) :
    FVec F S256x512 .bf16 :=
  k0_pay1 v0 (k0_pay3 (codesAt arg2 X_arg2 k)) (k0_pay4 (codesAt arg2 X_arg2 k)) (k0_pay5 (codesAt arg2 X_arg2 k))
    (k0_pay6 (codesAt arg2 X_arg2 k)) (k0_pay7 (codesAt arg2 X_arg2 k)) (k0_pay8 (codesAt arg2 X_arg2 k))
    (k0_pay9 (codesAt arg2 X_arg2 k)) (k0_pay10 (codesAt arg2 X_arg2 k)) (k0_pay11 (codesAt arg2 X_arg2 k))
    (k0_pay12 (F := F)) (k0_pay13 (F := F)) (selAt arg6 X_arg6 k)

section
variable (𝒱 : Variants) (c : Dev nD) (bd : Option 𝒱.V) (i : grid0.Coords) (arg1 : Memref sig .tc .vmem S256x4096 .bf16) (harg1 : arg1.IsWhole) (arg2 : Memref sig .tc .vmem S256x4096 .i32) (harg2 : arg2.IsWhole) (arg3 : Memref sig .tc .vmem S256x64 .f32) (harg3 : arg3.IsWhole) (arg4 : Memref sig .tc .vmem S256x16 .bf16) (harg4 : arg4.IsWhole) (arg5 : Memref sig .tc .vmem S256x16 .bf16) (harg5 : arg5.IsWhole) (arg6 : Memref sig .tc .vmem S64x4096 .f32) (harg6 : arg6.IsWhole) (arg7 : Memref sig .tc .vmem S256x256 .f32) (harg7 : arg7.IsWhole) (arg8 : Memref sig .tc .vmem S256x4096 .bf16) (harg8 : arg8.IsWhole) (v0 : Vec F S256x64 .f32) (X_arg2 : BufTy.Contents (Elt F) arg2.view.ty) (X_arg6 : BufTy.Contents (Elt F) arg6.view.ty)

/-- One trip writes one piece: its chunk, at its columns. -/
theorem tripL_eq (k : Fin k0_t1_loop.trips) :
    tripL_k0_t1 (F := F) 𝒱 c bd i arg1 harg1 arg2 harg2 arg3 harg3 arg4 harg4 arg5 harg5 arg6 harg6 arg7 harg7 arg8 harg8 v0 X_arg2 X_arg6 k
      = [⟨Rect.unit (s := S256x4096) (k0_off1 k) S256x512.size (k0_off1_inb k), chunk v0 arg2 X_arg2 arg6 X_arg6 k⟩] := by
  unfold tripL_k0_t1 trip_k0_t1
  rfl

/-- A trip's piece stays in the list of the pieces of the trips before any later trip. -/
theorem tripL_sub_pb (k : Fin k0_t1_loop.trips) :
    ∀ n : ℕ, n ≤ k0_t1_loop.trips → k.val < n →
      ∀ p ∈ tripL_k0_t1 (F := F) 𝒱 c bd i arg1 harg1 arg2 harg2 arg3 harg3 arg4 harg4 arg5 harg5 arg6 harg6 arg7 harg7 arg8 harg8 v0 X_arg2 X_arg6 k,
        p ∈ pb_k0_t1 (F := F) 𝒱 c bd i arg1 harg1 arg2 harg2 arg3 harg3 arg4 harg4 arg5 harg5 arg6 harg6 arg7 harg7 arg8 harg8 v0 X_arg2 X_arg6 n
  | 0, _, hk => absurd hk (Nat.not_lt_zero _)
  | n + 1, hn, hk => fun p hp => by
    have e := pb_k0_t1_succ (F := F) 𝒱 c bd i arg1 harg1 arg2 harg2 arg3 harg3 arg4 harg4 arg5 harg5 arg6 harg6 arg7 harg7 arg8 harg8 v0 X_arg2 X_arg6 ⟨n, hn⟩
    rw [show (⟨n, hn⟩ : Fin k0_t1_loop.trips).val + 1 = n + 1 from rfl] at e
    rw [e, List.mem_append]
    by_cases hkn : k.val = n
    · left
      have : k = ⟨n, hn⟩ := Fin.ext hkn
      rw [← this]; exact hp
    · right
      exact tripL_sub_pb k n (Nat.le_of_succ_le hn) (by omega) p hp

/-- The eight chunks cover the scratch: index (r, q) lies in the chunk of trip q / 512. -/
theorem scratch_cover (y : S256x4096.Idx) :
    ∃ p ∈ pb_k0_t1 (F := F) 𝒱 c bd i arg1 harg1 arg2 harg2 arg3 harg3 arg4 harg4 arg5 harg5 arg6 harg6 arg7 harg7 arg8 harg8 v0 X_arg2 X_arg6 k0_t1_loop.trips, y ∈ p.1.set := by
  have h0 : (y 0).val < 256 := Idealize.ShloMosaic.ValueIdx.idx2_lt0 y
  have h1 : (y 1).val < 4096 := Idealize.ShloMosaic.ValueIdx.idx2_lt1 y
  have hk : (y 1).val / 512 < k0_t1_loop.trips := by rw [trips_eq]; omega
  refine ⟨_, tripL_sub_pb 𝒱 c bd i arg1 harg1 arg2 harg2 arg3 harg3 arg4 harg4 arg5 harg5 arg6 harg6 arg7 harg7 arg8 harg8 v0 X_arg2 X_arg6 ⟨(y 1).val / 512, hk⟩ _ le_rfl hk _
    (by rw [tripL_eq]; exact List.mem_singleton_self _), ?_⟩
  rw [Rect.mem_set_unit, k0_off1_eq]
  intro a
  match a with
  | ⟨0, _⟩ => exact ⟨Nat.zero_le _, by show (y 0).val < 0 + 256; omega⟩
  | ⟨1, _⟩ =>
    refine ⟨?_, ?_⟩
    · show 512 * ((y 1).val / 512) ≤ (y 1).val; omega
    · show (y 1).val < 512 * ((y 1).val / 512) + 512; omega

end

end Cert.KernelIdeal.Trip

end
-- ==== Proof.Lora.Pre.lean ====
/-
  The precondition's last conjunct read back: every code word lies in 0 … 15.

  The precondition is a conjunction of five tests, the last of which is the conjunction over every entry c of the code
  array of (0 ≤ c) ∧ (c < 16), both comparisons signed. A conjunction that is 1 has both sides 1; a conjunction over
  all entries that is 1 has every entry 1; a signed comparison that is 1 orders the signed values. From
  0 ≤ c (signed) and c < 16 (signed) the unsigned value of c is below 16.
-/
import proofs.«424216_j20675972563492_3_alg».proof.Pre_finite_inputs
import proofs.«424216_j20675972563492_3_alg».proof.Proof.Gen.Pre_finite_inputs
import Idealize.ShloMosaic.Lib.ReduceAll
import Idealize.ShloMosaic.Lib.ValueIdx

noncomputable section

namespace Cert.Lora

open Idealize.ShloMosaic Idealize.ShloMosaic.ValueIdx

/-- The shape with no axes has one index. -/
instance subsingleton_scalarIdx : Subsingleton Cert.Pre_finite_inputs.S_.Idx :=
  ⟨fun _ _ => funext fun d => d.elim0⟩

/-- A 32-bit word whose signed value lies in 0 … 15 has its unsigned value below 16. -/
private theorem toNat_lt_of_toInt {c : BitVec 32} (h0 : 0 ≤ c.toInt) (h1 : c.toInt < 16) : c.toNat < 16 := by
  have hc := BitVec.toInt_eq_toNat_cond c
  have hlt := c.isLt
  split at hc <;> omega

/-- Under the precondition every code word is below 16. -/
theorem codes_lt {F : FTy → Type} [FloatOps F] (x : FVec F Cert.Pre_finite_inputs.S256x4096 .f32)
    (codes : IVec Cert.Pre_finite_inputs.S11008x4096 32) (s : FVec F Cert.Pre_finite_inputs.S11008x64 .f32)
    (a : FVec F Cert.Pre_finite_inputs.S16x4096 .f32) (b : FVec F Cert.Pre_finite_inputs.S11008x16 .f32)
    (h : Cert.Pre_finite_inputs.fn (F := F) x codes s a b = fun _ => 1#1) (i : Cert.Pre_finite_inputs.S11008x4096.Idx) :
    (codes i).toNat < 16 := by
  -- the whole conjunction at its one index
  have h0 : Cert.Pre_finite_inputs.fn (F := F) x codes s a b ix0 = 1#1 := congrFun h ix0
  dsimp only [Cert.Pre_finite_inputs.fn, Cert.Pre_finite_inputs.fn_part1] at h0
  -- its last conjunct: the conjunction over all entries
  have h1 := (IntOp.andi_eq_one.1 h0).2
  -- at the entry i: both comparisons hold
  have h2 := Host.reduce_andi_all _ _ _ _ _ h1 i
  obtain ⟨h3, h4⟩ := IntOp.andi_eq_one.1 h2
  have h5 : (0#32 : BitVec 32).toInt ≤ (codes i).toInt := IntOp.cmpi_sge.1 h3
  have h6 : (codes i).toInt < (16#32 : BitVec 32).toInt := IntOp.cmpi_slt.1 h4
  have e0 : (0#32 : BitVec 32).toInt = 0 := by decide
  have e16 : (16#32 : BitVec 32).toInt = 16 := by decide
  rw [e0] at h5
  rw [e16] at h6
  exact toNat_lt_of_toInt h5 h6

end Cert.Lora

end
-- ==== Proof.Lora.RefTerm.lean ====
/-
  The reference's result as one term of its five arguments: its host operations composed in the order it applies them.
  A code c is first brought into 0 … 15 the way array indexing does it (a negative c reads as c + 16), the level is
  looked up in the sixteen-entry table, the [11008, 4096] array of levels is viewed as [11008, 64, 64] — 64 blocks of
  64 features per row — and multiplied by the row's 64 block scales laid along the last axis, then viewed as
  [11008, 4096] again: that is the dequantised weight W. The result is  x · Wᵀ + ((x · Aᵀ) · Bᵀ) · 2.
-/
import proofs.«424216_j20675972563492_3_alg».proof.ReferenceIdeal
import proofs.«424216_j20675972563492_3_alg».proof.Proof.Gen.ReferenceIdeal

noncomputable section

namespace Cert.Lora.Ref

open Idealize.ShloMosaic Cert.ReferenceIdeal Cert.ReferenceIdeal.Facts₀

variable {F : FTy → Type} [FloatOps F]

/-- The table of levels, as the reference's constant holds it. -/
def table : FVec F S16 .f32 := fun i => FloatOps.ofBits .f32 (lit0 (S16.rowMajor i))

/-- The codes with a negative one read as itself plus 16. -/
def wrapped (codes : IVec S11008x4096 32) : IVec S11008x4096 32 :=
  select (cmpi .slt codes (broadcastInDim S11008x4096 ![] bcast_S_S11008x4096 (constantI S_ 32 0#32)))
    (addi codes (broadcastInDim S11008x4096 ![] bcast_S_S11008x4096 (constantI S_ 32 16#32))) codes

/-- The level of every code: the table looked up at the wrapped code. -/
def levels (codes : IVec S11008x4096 32) : FVec F S11008x4096 .f32 :=
  Host.gather gather_S16_S11008x4096x1_S11008x4096_n_0_n_n_0_2_1 (table (F := F))
    (broadcastInDim S11008x4096x1 ![0, 1] bcast_S11008x4096_S11008x4096x1_0_1 (wrapped codes))

/-- The dequantised weight: levels times block scales, block by block. -/
def weights (codes : IVec S11008x4096 32) (s : FVec F S11008x64 .f32) : FVec F S11008x4096 .f32 :=
  shapeCast S11008x4096
    (mulf (shapeCast S11008x64x64 (levels (F := F) codes) shapeCasts_S11008x4096_S11008x64x64)
      (broadcastInDim S11008x64x64 ![0, 1, 2] bcast_S11008x64x1_S11008x64x64_0_1_2
        (broadcastInDim S11008x64x1 ![0, 1] bcast_S11008x64_S11008x64x1_0_1 s)))
    shapeCasts_S11008x64x64_S11008x4096

/-- The reference's result. -/
def out (x : FVec F S256x4096 .f32) (codes : IVec S11008x4096 32) (s : FVec F S11008x64 .f32)
    (a : FVec F S16x4096 .f32) (b : FVec F S11008x16 .f32) : FVec F S256x11008 .f32 :=
  addf
    (Host.dotGeneral dot_S256x4096_S4096x11008_S256x11008_1_0_0_1_n_n none x
      (transpose S4096x11008 [1, 0] (weights codes s) transposes_S11008x4096_S4096x11008_1_0))
    (mulf
      (Host.dotGeneral dot_S256x16_S16x11008_S256x11008_1_0_0_1_n_n none
        (Host.dotGeneral dot_S256x4096_S4096x16_S256x16_1_0_0_1_n_n none x
          (transpose S4096x16 [1, 0] a transposes_S16x4096_S4096x16_1_0))
        (transpose S16x11008 [1, 0] b transposes_S11008x16_S16x11008_1_0))
      (broadcastInDim S256x11008 ![] bcast_S_S256x11008 (constant S_ .f32 0x40000000#32)))

end Cert.Lora.Ref

end
-- ==== Proof.Lora.RefRun.lean ====
/-
  The run of the reference program, read back as one term. The reference is a straight line of 26 host operations
  and launches no kernel: from any memory, on every device, every weakly fair execution terminates, the result
  buffer holds the operations composed in the order the program applies them — the term `out` of the five argument
  arrays — and the five arguments hold what they held at the start.

  Each operation writes one buffer of its own and reads buffers written before it, so what a buffer holds at the end
  is found by walking the line backwards: at the operation that writes it, the operation's function of its operands'
  contents; at every other operation, what was there before.
-/
import proofs.«424216_j20675972563492_3_alg».proof.Proof.Lora.RefTerm
import Idealize.ShloMosaic.Lib.StableHlo.Run

noncomputable section

namespace Cert.Lora.Ref

open Cert.ReferenceIdeal Cert.ReferenceIdeal.Gen Idealize.ShloMosaic Idealize.ShloMosaic.TcCoe Idealize.SL.Sem Idealize.ShloMosaic.StableHlo

variable {F : FTy → Type} [FloatOps F]

/-- The reference's 26 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S11008x4096 ![] bcast_S_S11008x4096 : (⟨S_, .i32⟩ : BufTy).Contents (Elt F) → (⟨S11008x4096, .i32⟩ : BufTy).Contents (Elt F)),
    binary main_arg1 main_v0 main_v1 (cmpi .slt : (⟨S11008x4096, .i32⟩ : BufTy).Contents (Elt F) → (⟨S11008x4096, .i32⟩ : BufTy).Contents (Elt F) → (⟨S11008x4096, .i1⟩ : BufTy).Contents (Elt F)),
    nullary main_c_0 (constantI S_ 32 16#32),
    unary main_c_0 main_v2 (broadcastInDim S11008x4096 ![] bcast_S_S11008x4096 : (⟨S_, .i32⟩ : BufTy).Contents (Elt F) → (⟨S11008x4096, .i32⟩ : BufTy).Contents (Elt F)),
    binary main_arg1 main_v2 main_v3 (addi : (⟨S11008x4096, .i32⟩ : BufTy).Contents (Elt F) → (⟨S11008x4096, .i32⟩ : BufTy).Contents (Elt F) → (⟨S11008x4096, .i32⟩ : BufTy).Contents (Elt F)),
    ternary main_v1 main_v3 main_arg1 main_v4 (select : (⟨S11008x4096, .i1⟩ : BufTy).Contents (Elt F) → (⟨S11008x4096, .i32⟩ : BufTy).Contents (Elt F) → (⟨S11008x4096, .i32⟩ : BufTy).Contents (Elt F) → (⟨S11008x4096, .i32⟩ : BufTy).Contents (Elt F)),
    unary main_v4 main_v5 (broadcastInDim S11008x4096x1 ![0, 1] bcast_S11008x4096_S11008x4096x1_0_1 : (⟨S11008x4096, .i32⟩ : BufTy).Contents (Elt F) → (⟨S11008x4096x1, .i32⟩ : BufTy).Contents (Elt F)),
    binary main_cst main_v5 main_v6 ((fun x i => Host.gather gather_S16_S11008x4096x1_S11008x4096_n_0_n_n_0_2_1 x i) : (⟨S16, .f32⟩ : BufTy).Contents (Elt F) → (⟨S11008x4096x1, .i32⟩ : BufTy).Contents (Elt F) → (⟨S11008x4096, .f32⟩ : BufTy).Contents (Elt F)),
    reshape main_v6 main_v7 rfl shapeCasts_S11008x4096_S11008x64x64,
    unary main_arg2 main_v8 (broadcastInDim S11008x64x1 ![0, 1] bcast_S11008x64_S11008x64x1_0_1 : (⟨S11008x64, .f32⟩ : BufTy).Contents (Elt F) → (⟨S11008x64x1, .f32⟩ : BufTy).Contents (Elt F)),
    unary main_v8 main_v9 (broadcastInDim S11008x64x64 ![0, 1, 2] bcast_S11008x64x1_S11008x64x64_0_1_2 : (⟨S11008x64x1, .f32⟩ : BufTy).Contents (Elt F) → (⟨S11008x64x64, .f32⟩ : BufTy).Contents (Elt F)),
    binary main_v7 main_v9 main_v10 (mulf : (⟨S11008x64x64, .f32⟩ : BufTy).Contents (Elt F) → (⟨S11008x64x64, .f32⟩ : BufTy).Contents (Elt F) → (⟨S11008x64x64, .f32⟩ : BufTy).Contents (Elt F)),
    reshape main_v10 main_v11 rfl shapeCasts_S11008x64x64_S11008x4096,
    unary main_v11 main_v12 ((transpose S4096x11008 [1, 0] · transposes_S11008x4096_S4096x11008_1_0) : (⟨S11008x4096, .f32⟩ : BufTy).Contents (Elt F) → (⟨S4096x11008, .f32⟩ : BufTy).Contents (Elt F)),
    binary main_arg0 main_v12 main_v13 ((fun l r => Host.dotGeneral dot_S256x4096_S4096x11008_S256x11008_1_0_0_1_n_n none l r) : (⟨S256x4096, .f32⟩ : BufTy).Contents (Elt F) → (⟨S4096x11008, .f32⟩ : BufTy).Contents (Elt F) → (⟨S256x11008, .f32⟩ : BufTy).Contents (Elt F)),
    unary main_arg3 main_v14 ((transpose S4096x16 [1, 0] · transposes_S16x4096_S4096x16_1_0) : (⟨S16x4096, .f32⟩ : BufTy).Contents (Elt F) → (⟨S4096x16, .f32⟩ : BufTy).Contents (Elt F)),
    binary main_arg0 main_v14 main_v15 ((fun l r => Host.dotGeneral dot_S256x4096_S4096x16_S256x16_1_0_0_1_n_n none l r) : (⟨S256x4096, .f32⟩ : BufTy).Contents (Elt F) → (⟨S4096x16, .f32⟩ : BufTy).Contents (Elt F) → (⟨S256x16, .f32⟩ : BufTy).Contents (Elt F)),
    unary main_arg4 main_v16 ((transpose S16x11008 [1, 0] · transposes_S11008x16_S16x11008_1_0) : (⟨S11008x16, .f32⟩ : BufTy).Contents (Elt F) → (⟨S16x11008, .f32⟩ : BufTy).Contents (Elt F)),
    binary main_v15 main_v16 main_v17 ((fun l r => Host.dotGeneral dot_S256x16_S16x11008_S256x11008_1_0_0_1_n_n none l r) : (⟨S256x16, .f32⟩ : BufTy).Contents (Elt F) → (⟨S16x11008, .f32⟩ : BufTy).Contents (Elt F) → (⟨S256x11008, .f32⟩ : BufTy).Contents (Elt F)),
    nullary main_cst_1 (constant S_ .f32 0x40000000#32),
    unary main_cst_1 main_v18 (broadcastInDim S256x11008 ![] bcast_S_S256x11008 : (⟨S_, .f32⟩ : BufTy).Contents (Elt F) → (⟨S256x11008, .f32⟩ : BufTy).Contents (Elt F)),
    binary main_v17 main_v18 main_v19 (mulf : (⟨S256x11008, .f32⟩ : BufTy).Contents (Elt F) → (⟨S256x11008, .f32⟩ : BufTy).Contents (Elt F) → (⟨S256x11008, .f32⟩ : BufTy).Contents (Elt F)),
    binary main_v13 main_v19 main_v20 (addf : (⟨S256x11008, .f32⟩ : BufTy).Contents (Elt F) → (⟨S256x11008, .f32⟩ : BufTy).Contents (Elt F) → (⟨S256x11008, .f32⟩ : BufTy).Contents (Elt F)) ]

/-- The program is that line: each operation a step that binds nothing, then the return. -/
theorem main_eq (c : Dev nD) : main (F := F) c = seq ops := rfl

/-- No buffer of the signature is scoped. -/
theorem scopedRefs_eq : (Finset.univ.filter fun b : Ref sig .tc => b.isScoped) = ∅ := by decide

/-- There is no semaphore, so none is scoped. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub ..,
    unary_bufs_sub .., binary_bufs_sub .., ternary_bufs_sub .., unary_bufs_sub .., binary_bufs_sub ..,
    reshape_bufs_sub .., unary_bufs_sub .., unary_bufs_sub .., binary_bufs_sub .., reshape_bufs_sub ..,
    unary_bufs_sub .., binary_bufs_sub .., unary_bufs_sub .., binary_bufs_sub .., unary_bufs_sub ..,
    binary_bufs_sub .., nullary_bufs_sub .., unary_bufs_sub .., binary_bufs_sub .., binary_bufs_sub ..⟩

/-! ## What the buffers hold after the line

From any contents `V` of the device's buffers: the result buffer holds `out` of the five arguments' contents, and
each argument, which no operation writes, holds what it held. -/

/-- The result buffer after the line: the operations composed, which is `out` unfolded. -/
theorem after_out (V : Valuation τ sig (Elt F)) :
    after (ops (F := F)) V (Proc.devRef .tc main_v20)
      = out (V (Proc.devRef .tc main_arg0)) (V (Proc.devRef .tc main_arg1)) (V (Proc.devRef .tc main_arg2))
          (V (Proc.devRef .tc main_arg3)) (V (Proc.devRef .tc main_arg4)) := by
  after_results_simp
  rfl

theorem after_arg0 (V : Valuation τ sig (Elt F)) :
    after (ops (F := F)) V (Proc.devRef .tc main_arg0) = V (Proc.devRef .tc main_arg0) := by after_results_simp
theorem after_arg1 (V : Valuation τ sig (Elt F)) :
    after (ops (F := F)) V (Proc.devRef .tc main_arg1) = V (Proc.devRef .tc main_arg1) := by after_results_simp
theorem after_arg2 (V : Valuation τ sig (Elt F)) :
    after (ops (F := F)) V (Proc.devRef .tc main_arg2) = V (Proc.devRef .tc main_arg2) := by after_results_simp
theorem after_arg3 (V : Valuation τ sig (Elt F)) :
    after (ops (F := F)) V (Proc.devRef .tc main_arg3) = V (Proc.devRef .tc main_arg3) := by after_results_simp
theorem after_arg4 (V : Valuation τ sig (Elt F)) :
    after (ops (F := F)) V (Proc.devRef .tc main_arg4) = V (Proc.devRef .tc main_arg4) := by after_results_simp

/-- On every device, for any float values, from any memory with zero counters: every weakly fair execution of the
    reference terminates with its result buffer at `out` of the five arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v20).trans (after_out _),
      (h c main_arg0).trans (after_arg0 _),
      (h c main_arg1).trans (after_arg1 _),
      (h c main_arg2).trans (after_arg2 _),
      (h c main_arg3).trans (after_arg3 _),
      (h c main_arg4).trans (after_arg4 _)⟩)
    (run_seq scopedRefs_eq scopedSems_eq defs main (fun _ => ops) main_eq (fun _ => ops_sub) m ρ)

end Cert.Lora.Ref

end
-- ==== Proof.Lora.Spec.lean ====
/-
  The function both programs compute, written once over the argument arrays, and the two laws of the
  extended reals that join the kernel's arrangement of it to the reference's.

  A row n of the 4-bit weight matrix stores, for each input feature k, a code c(n, k) in 0 … 15 naming one of sixteen
  fixed levels, and one scale per block of 64 consecutive features. The dequantised weight is
      W(n, k) = level(c(n, k)) · scale(n, k / 64),
  the base product is  Σ_k x(r, k) · W(n, k),  the low-rank path is  Σ_ρ (Σ_k x(r, k) · A(ρ, k)) · B(n, ρ)  and the
  result is   base + 2 · low-rank.
-/
import Idealize.ShloMosaic.PureOps.Ideal
import Idealize.ShloMosaic.PureOps.Ideal.Laws
import Idealize.ShloMosaic.Lib.ValueIdx
import Mathlib.Data.EReal.Operations
import Mathlib.Algebra.BigOperators.Group.Finset.Basic

noncomputable section

open scoped BigOperators

namespace Cert.Lora

open Idealize.ShloMosaic Idealize.ShloMosaic.ValueIdx

/-! ## The code book -/

/-- The sixteen levels of the 4-bit normal-float code book, as f32 words, in the order of their codes. -/
def levelWord : Fin 16 → BitVec 32
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | _ => 0x3F800000#32

/-- The level a code word names. A word outside 0 … 15 is read modulo 16; nothing below rests on that. -/
def level (c : BitVec 32) : EReal :=
  Ideal.ofBits .f32 (levelWord ⟨c.toNat % 16, Nat.mod_lt _ (by decide)⟩)

/-- The factor of the low-rank path: the f32 word of 2.0. -/
def two : EReal := Ideal.ofBits .f32 0x40000000#32

/-- That word denotes the real number 2. -/
theorem two_eq : two = ((2 : ℝ) : EReal) := by
  unfold two
  simp [Ideal.ofBits, Ideal.ieee]
  first
    | exact_mod_cast (by norm_num : (8388608 : ℝ) * (1 / 4194304) = 2)
    | (rw [← EReal.coe_mul]; norm_num)

theorem two_nonneg : (0 : EReal) ≤ two := by rw [two_eq]; exact_mod_cast (by norm_num : (0 : ℝ) ≤ 2)
theorem two_ne_top : two ≠ ⊤ := by rw [two_eq]; exact EReal.coe_ne_top _

/-! ## The result, entry by entry -/

/-- The block of 64 features that feature k lies in. -/
def blockOf (k : Fin 4096) : Fin 64 := ⟨k.val / 64, by have := k.isLt; omega⟩

/-- The dequantised weight W(n, k): the level its code names times its block's scale. -/
def weight (codes : (⟨2, ![11008, 4096]⟩ : Shape).Idx → BitVec 32) (scale : (⟨2, ![11008, 64]⟩ : Shape).Idx → EReal)
    (n : Fin 11008) (k : Fin 4096) : EReal :=
  level (codes (ix2 n k)) * scale (ix2 n (blockOf k))

/-- The projection of token r onto direction ρ of the low-rank path. -/
def proj (x : (⟨2, ![256, 4096]⟩ : Shape).Idx → EReal) (a : (⟨2, ![16, 4096]⟩ : Shape).Idx → EReal)
    (r : Fin 256) (ρ : Fin 16) : EReal :=
  ∑ k : Fin 4096, x (ix2 r k) * a (ix2 ρ k)

/-- Entry (r, n) of the result: the base product plus twice the low-rank path. -/
def entry (x : (⟨2, ![256, 4096]⟩ : Shape).Idx → EReal) (codes : (⟨2, ![11008, 4096]⟩ : Shape).Idx → BitVec 32)
    (scale : (⟨2, ![11008, 64]⟩ : Shape).Idx → EReal) (a : (⟨2, ![16, 4096]⟩ : Shape).Idx → EReal)
    (b : (⟨2, ![11008, 16]⟩ : Shape).Idx → EReal) (r : Fin 256) (n : Fin 11008) : EReal :=
  (∑ k : Fin 4096, x (ix2 r k) * weight codes scale n k) + (∑ ρ : Fin 16, proj x a r ρ * b (ix2 n ρ)) * two

/-- The whole result array. -/
def result (x : (⟨2, ![256, 4096]⟩ : Shape).Idx → EReal) (codes : (⟨2, ![11008, 4096]⟩ : Shape).Idx → BitVec 32)
    (scale : (⟨2, ![11008, 64]⟩ : Shape).Idx → EReal) (a : (⟨2, ![16, 4096]⟩ : Shape).Idx → EReal)
    (b : (⟨2, ![11008, 16]⟩ : Shape).Idx → EReal) : (⟨2, ![256, 11008]⟩ : Shape).Idx → EReal :=
  fun j => entry x codes scale a b (j 0) (j 1)

/-! ## The two laws -/

/-- A sum against an indicator keeps one term: Σ_b s(b) · [b = b₀] = s(b₀). On the extended reals this needs no
    finiteness, since a product with 0 is 0 and a product with 1 is the other factor whatever that factor is. -/
theorem sum_mul_indicator {ι : Type*} [Fintype ι] [DecidableEq ι] (s : ι → EReal) (b₀ : ι) (e : ι → EReal)
    (he : ∀ b, e b = if b = b₀ then 1 else 0) : ∑ b, s b * e b = s b₀ := by
  rw [Finset.sum_eq_single b₀]
  · rw [he, if_pos rfl, mul_one]
  · intro b _ hb; rw [he, if_neg hb, mul_zero]
  · intro h; exact absurd (Finset.mem_univ _) h

/-- A factor that is a real number and not negative moves across a finite sum of extended reals, whatever the terms:
    Σ_i (f(i) · c) = (Σ_i f(i)) · c. -/
theorem sum_mul_of_nonneg_of_ne_top {ι : Type*} (s : Finset ι) (f : ι → EReal) {c : EReal} (h0 : 0 ≤ c) (ht : c ≠ ⊤) :
    ∑ i ∈ s, f i * c = (∑ i ∈ s, f i) * c := by
  classical
  induction s using Finset.induction_on with
  | empty => simp
  | insert i s hi ih =>
    rw [Finset.sum_insert hi, Finset.sum_insert hi, ih, EReal.right_distrib_of_nonneg_of_ne_top h0 ht]

/-- The low-rank path with the factor 2 folded into the projection first is the path times 2:
    Σ_ρ (p(ρ) · 2) · b(ρ) = (Σ_ρ p(ρ) · b(ρ)) · 2. -/
theorem sum_scaled_mul {ι : Type*} [Fintype ι] (p b : ι → EReal) :
    ∑ ρ, (p ρ * two) * b ρ = (∑ ρ, p ρ * b ρ) * two := by
  rw [← sum_mul_of_nonneg_of_ne_top Finset.univ _ two_nonneg two_ne_top]
  exact Finset.sum_congr rfl fun ρ _ => mul_right_comm _ _ _

end Cert.Lora

end
-- ==== Proof.Lora.RefValue.lean ====
/-
  The reference's result, read index by index, is the specification.

  Entry (r, n) of the reference's term is a sum of two parts. The first is the product of x with the transposed
  dequantised weights: Σ_k x(r, k) · W(n, k), where W(n, k) is met through two changes of view — the [11008, 4096] array of
  looked-up levels seen as [11008, 64, 64], multiplied block by block by the scales laid along the last axis, and seen
  as [11008, 4096] again; position (n, k) of the flat view is position (n, k / 64, k % 64) of the blocked one, so the
  scale met is that of block k / 64. The level is a table lookup at the code brought into 0 … 15; a code already there
  is not negative, so it is left as it is, the lookup's clamp does nothing, and the table's sixteen words are the code
  book's. The second part is ((x · Aᵀ) · Bᵀ) · 2, each product a sum over its one contracted coordinate. Both sides are
  then the same sums: no finiteness and no distributive law is used.
-/
import proofs.«424216_j20675972563492_3_alg».proof.Proof.Lora.Spec
import proofs.«424216_j20675972563492_3_alg».proof.Proof.Lora.RefTerm
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.Lora.Ref

open Idealize.ShloMosaic Idealize.ShloMosaic.ValueIdx Cert.ReferenceIdeal

/-! ## The three products

Each contracts one axis: entry (r, c) is the sum over the contracted coordinate of the products of the entries. -/

/-- The base product at (r, n). -/
theorem dot_base_apply (x : FVec Ideal S256x4096 .f32) (w : FVec Ideal S4096x11008 .f32) (r : Fin 256) (n : Fin 11008) :
    Host.dotGeneral dot_S256x4096_S4096x11008_S256x11008_1_0_0_1_n_n none x w (ix2 r n)
      = ∑ k : Fin 4096, x (ix2 r k) * w (ix2 k n) :=
  StackMember.dotGeneral_plain_apply (m := 256) (n := 11008) (k := 4096) none x w r n

/-- The projection onto the low-rank directions at (r, ρ). -/
theorem dot_proj_apply (x : FVec Ideal S256x4096 .f32) (w : FVec Ideal S4096x16 .f32) (r : Fin 256) (ρ : Fin 16) :
    Host.dotGeneral dot_S256x4096_S4096x16_S256x16_1_0_0_1_n_n none x w (ix2 r ρ)
      = ∑ k : Fin 4096, x (ix2 r k) * w (ix2 k ρ) :=
  StackMember.dotGeneral_plain_apply (m := 256) (n := 16) (k := 4096) none x w r ρ

/-- The low-rank path's second product at (r, n). -/
theorem dot_low_apply (p : FVec Ideal S256x16 .f32) (w : FVec Ideal S16x11008 .f32) (r : Fin 256) (n : Fin 11008) :
    Host.dotGeneral dot_S256x16_S16x11008_S256x11008_1_0_0_1_n_n none p w (ix2 r n)
      = ∑ ρ : Fin 16, p (ix2 r ρ) * w (ix2 ρ n) :=
  StackMember.dotGeneral_plain_apply (m := 256) (n := 11008) (k := 16) none p w r n

/-! ## The code book -/

/-- The reference's table of words is the specification's, entry by entry. -/
theorem lit0_eq_levelWord (q : Fin 16) : lit0 q = Cert.Lora.levelWord q := by
  fin_cases q <;> rfl

/-- The table at entry q is the level q names. -/
theorem table_apply (q : Fin 16) : table (F := Ideal) (ix1 q) = Ideal.ofBits .f32 (Cert.Lora.levelWord q) := by
  have h : S16.rowMajor (ix1 q) = q := Fin.ext (Shape.rowMajor_val_one _)
  exact congrArg (fun z => Ideal.ofBits .f32 z) ((congrArg lit0 h).trans (lit0_eq_levelWord q))

/-- A word in 0 … 15 is not negative, so bringing it into range leaves it as it is, and so does the clamp to [0, 15]. -/
theorem word_small (q : Fin 16) :
    Scalar.select (IntOp.cmpi .slt (BitVec.ofNat 32 q.val) 0#32) (IntOp.addi (BitVec.ofNat 32 q.val) 16#32) (BitVec.ofNat 32 q.val)
        = BitVec.ofNat 32 q.val
      ∧ min (BitVec.ofNat 32 q.val).toInt.toNat (16 - 1) = q.val := by
  fin_cases q <;> decide

/-- The same for any word whose value is below 16. -/
theorem word_lt (c : BitVec 32) (hc : c.toNat < 16) :
    Scalar.select (IntOp.cmpi .slt c 0#32) (IntOp.addi c 16#32) c = c ∧ min c.toInt.toNat (16 - 1) = c.toNat := by
  have e : BitVec.ofNat 32 (⟨c.toNat, hc⟩ : Fin 16).val = c :=
    BitVec.eq_of_toNat_eq (by rw [BitVec.toNat_ofNat]; exact Nat.mod_eq_of_lt c.isLt)
  have h := word_small ⟨c.toNat, hc⟩
  rw [e] at h
  exact h

/-- The code brought into range, at an index: a choice on the sign of the code there. -/
theorem wrapped_apply (codes : IVec S11008x4096 32) (j : S11008x4096.Idx) :
    wrapped codes j = Scalar.select (IntOp.cmpi .slt (codes j) 0#32) (IntOp.addi (codes j) 16#32) (codes j) := rfl

/-- The looked-up level at (n, k) is the level the code there names. -/
theorem levels_apply (codes : IVec S11008x4096 32) (hc : ∀ i, (codes i).toNat < 16) (n : Fin 11008) (k : Fin 4096) :
    levels (F := Ideal) codes (ix2 n k) = Cert.Lora.level (codes (ix2 n k)) := by
  have hw := word_lt (codes (ix2 n k)) (hc _)
  have hi : broadcastInDim S11008x4096x1 ![0, 1] Facts₀.bcast_S11008x4096_S11008x4096x1_0_1 (wrapped codes)
      (takeIdx (ix2 n k)) = codes (ix2 n k) := by
    rw [broadcastInDim_apply _ _ _ _ (ix2 n k) (fun a => match a with | ⟨0, _⟩ => rfl | ⟨1, _⟩ => rfl), wrapped_apply]
    exact hw.1
  unfold levels
  show Host.gather (takeDims 16 11008 4096 Facts₀.gather_S16_S11008x4096x1_S11008x4096_n_0_n_n_0_2_1_wf)
    (table (F := Ideal)) _ (ix2 n k) = _
  rw [gather_take_apply (by decide)]
  refine (table_apply _).trans ?_
  unfold Cert.Lora.level
  refine congrArg (fun z => Ideal.ofBits .f32 (Cert.Lora.levelWord z)) (Fin.ext ?_)
  show min (broadcastInDim S11008x4096x1 ![0, 1] Facts₀.bcast_S11008x4096_S11008x4096x1_0_1 (wrapped codes)
      (takeIdx (ix2 n k))).toInt.toNat (16 - 1) = (codes (ix2 n k)).toNat % 16
  rw [hi, hw.2, Nat.mod_eq_of_lt (hc _)]

/-! ## The dequantised weight

Feature k of a row is position k % 64 of block k / 64: the flat view's (n, k) and the blocked view's
(n, k / 64, k % 64) have the same row-major position, n · 4096 + k. -/

/-- Position k % 64 within a block. -/
def within (k : Fin 4096) : Fin 64 := ⟨k.val % 64, Nat.mod_lt _ (by decide)⟩

/-- The scales laid along the last axis of the blocked view, at (n, b, l): the scale of row n's block b. -/
theorem scales_apply (s : FVec Ideal S11008x64 .f32) (n : Fin 11008) (b l : Fin 64) :
    broadcastInDim S11008x64x64 ![0, 1, 2] Facts₀.bcast_S11008x64x1_S11008x64x64_0_1_2
      (broadcastInDim S11008x64x1 ![0, 1] Facts₀.bcast_S11008x64_S11008x64x1_0_1 s) (ix3 n b l) = s (ix2 n b) := by
  rw [broadcastInDim_apply _ _ _ _ (ix3 n b (0 : Fin 1))
      (fun a => match a with | ⟨0, _⟩ => rfl | ⟨1, _⟩ => rfl | ⟨2, _⟩ => rfl),
    broadcastInDim_apply _ _ _ _ (ix2 n b) (fun a => match a with | ⟨0, _⟩ => rfl | ⟨1, _⟩ => rfl)]

/-- The flat view's (n, k) and the blocked view's (n, k / 64, k % 64) are one position. -/
theorem position_eq (n : Fin 11008) (k : Fin 4096) :
    (S11008x64x64.rowMajor (ix3 n (Cert.Lora.blockOf k) (within k))).val = (S11008x4096.rowMajor (ix2 n k)).val := by
  rw [Shape.rowMajor_val_three, Shape.rowMajor_val_two]
  show (n.val * 64 + k.val / 64) * 64 + k.val % 64 = n.val * 4096 + k.val
  omega

/-- The reference's weight at (n, k) is W(n, k). -/
theorem weights_apply (codes : IVec S11008x4096 32) (hc : ∀ i, (codes i).toNat < 16) (s : FVec Ideal S11008x64 .f32)
    (n : Fin 11008) (k : Fin 4096) :
    weights (F := Ideal) codes s (ix2 n k) = Cert.Lora.weight codes s n k := by
  unfold weights Cert.Lora.weight
  rw [shapeCast_apply _ _ (ix2 n k) (ix3 n (Cert.Lora.blockOf k) (within k)) (position_eq n k), mulf_apply,
    shapeCast_apply _ _ (ix3 n (Cert.Lora.blockOf k) (within k)) (ix2 n k) (position_eq n k).symm,
    levels_apply codes hc, scales_apply]

/-! ## The result -/

/-- At the ideal values the reference's result is the specification's, under the hypothesis that every code lies in
    0 … 15: entry (r, n) is the base product over the dequantised weights plus twice the low-rank path. -/
theorem out_eq_result (x : FVec Ideal S256x4096 .f32) (codes : IVec S11008x4096 32) (s : FVec Ideal S11008x64 .f32)
    (a : FVec Ideal S16x4096 .f32) (b : FVec Ideal S11008x16 .f32) (hc : ∀ i, (codes i).toNat < 16) :
    out (F := Ideal) x codes s a b = Cert.Lora.result x codes s a b := by
  funext j
  obtain ⟨r, n, rfl⟩ : ∃ (r : Fin 256) (n : Fin 11008), j = ix2 r n := ⟨j 0, j 1, eq_ix2 j⟩
  show out (F := Ideal) x codes s a b (ix2 r n) = Cert.Lora.entry x codes s a b r n
  unfold out Cert.Lora.entry
  rw [addf_apply, mulf_apply, dot_base_apply, dot_low_apply]
  refine congrArg₂ (· + ·) ?_ (congrArg₂ (· * ·) ?_ rfl)
  · refine Finset.sum_congr rfl fun k _ => ?_
    rw [transpose_ix2_apply, weights_apply codes hc]
  · refine Finset.sum_congr rfl fun ρ _ => ?_
    rw [dot_proj_apply, transpose_ix2_apply]
    unfold Cert.Lora.proj
    refine congrArg₂ (· * ·) (Finset.sum_congr rfl fun k _ => ?_) rfl
    rw [transpose_ix2_apply]

end Cert.Lora.Ref

end
-- ==== Proof.Lora.KCol.lean ====
/-
  Grid point t (of 43) of the kernel's one launch handles output features 256·t … 256·t + 255; entry j of its blocks is
  feature 256·t + j.
-/
import proofs.«424216_j20675972563492_3_alg».proof.Proof.Gen.KernelIdeal.Launch

noncomputable section

namespace Cert.Lora.K

open Cert.KernelIdeal Cert.KernelIdeal.Gen Idealize.ShloMosaic

/-- The grid has 43 points. -/
theorem gridN : cfg0.N = 43 := rfl

/-- The output feature that entry j of grid point t's block is. -/
def col (t : Fin cfg0.N) (j : Fin 256) : Fin 11008 :=
  ⟨256 * t.val + j.val, by have h : t.val < 43 := t.isLt; have := j.isLt; omega⟩

@[simp] theorem col_val (t : Fin cfg0.N) (j : Fin 256) : (col t j).val = 256 * t.val + j.val := rfl

end Cert.Lora.K

end
-- ==== Proof.Lora.Pay1.lean ====
/-
  The value stored into the scratch, read at an entry.

  The stored value is the product of two arrays. The first is a tree of selects on four bits of the code word c at the
  entry (c AND 1, c AND 2, c AND 4, c AND 8, each compared with zero) whose sixteen leaves are the sixteen levels; it
  depends on c alone, and on each of the words 0 … 15 it is the level that word names. The second is the product of the
  row's 64 block scales (256 × 64) with the 0/1 selector (64 × 512), accumulated into zero. So at the entry (p, q), with
  c = c(p, q) below 16, the value is
      level(c) · Σ_b s(p, b) · e(b, q).
  A change of format between the two float formats, and a change of shape to the same shape, are the identity on the
  extended reals.
-/
import proofs.«424216_j20675972563492_3_alg».proof.Proof.Lora.Spec
import proofs.«424216_j20675972563492_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lora

open Cert.KernelIdeal Cert.KernelIdeal.Gen Idealize.ShloMosaic Idealize.ShloMosaic.ValueIdx

/-- The product of an m×k matrix with a k×n matrix, accumulated into zero, read at an entry: the sum over the contracted
    coordinate of the products of the entries. At the extended reals; w is the well-formedness of the dimension numbers
    (axis 1 of the left operand contracted with axis 0 of the right, no batch axes). -/
private theorem matmul_zero_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) _ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The bit of the code word c under the mask k, as the one-bit condition the selects read: 1 when c AND k is not zero. -/
private def codeBit (c k : BitVec 32) : BitVec 1 := IntOp.cmpi .ne (IntOp.andi c k) 0#32

/-- The sixteen-leaf tree of selects, as a function of the code word alone: the bit under 8 chooses between the upper and
    the lower eight levels, the bit under 4 between the fours of each, the bit under 2 between the pairs, the bit under 1
    within a pair. -/
private def tree (c : BitVec 32) : EReal :=
  Scalar.select (codeBit c 8#32)
    (Scalar.select (codeBit c 4#32)
      (Scalar.select (codeBit c 2#32)
        (Scalar.select (codeBit c 1#32) (Ideal.ofBits .f32 0x3F800000#32) (Ideal.ofBits .f32 0x3F3913B3#32))
        (Scalar.select (codeBit c 1#32) (Ideal.ofBits .f32 0x3F1007AB#32) (Ideal.ofBits .f32 0x3EE1A4B8#32)))
      (Scalar.select (codeBit c 2#32)
        (Scalar.select (codeBit c 1#32) (Ideal.ofBits .f32 0x3EAD033A#32) (Ideal.ofBits .f32 0x3E7C04DD#32))
        (Scalar.select (codeBit c 1#32) (Ideal.ofBits .f32 0x3E24CAE3#32) (Ideal.ofBits .f32 0x3DA2FAFF#32))))
    (Scalar.select (codeBit c 4#32)
      (Scalar.select (codeBit c 2#32)
        (Scalar.select (codeBit c 1#32) (Ideal.ofBits .f32 0x00000000#32) (Ideal.ofBits .f32 0xBDBA7871#32))
        (Scalar.select (codeBit c 1#32) (Ideal.ofBits .f32 0xBE3D353F#32) (Ideal.ofBits .f32 0xBE91A24D#32)))
      (Scalar.select (codeBit c 2#32)
        (Scalar.select (codeBit c 1#32) (Ideal.ofBits .f32 0xBECA32A0#32) (Ideal.ofBits .f32 0xBF066B30#32))
        (Scalar.select (codeBit c 1#32) (Ideal.ofBits .f32 0xBF3239B1#32) (Ideal.ofBits .f32 0xBF800000#32))))

/-- On each of the sixteen code words the tree selects the level the code names. -/
private theorem tree_ofNat (k : Fin 16) : tree (BitVec.ofNat 32 k) = level (BitVec.ofNat 32 k) := by
  fin_cases k <;> rfl

/-- On a code word below 16 the tree selects the level the code names. -/
private theorem tree_eq_level (c : BitVec 32) (h : c.toNat < 16) : tree c = level c := by
  have hc : c = BitVec.ofNat 32 ((⟨c.toNat, h⟩ : Fin 16) : ℕ) :=
    BitVec.eq_of_toNat_eq (by rw [BitVec.toNat_ofNat, Nat.mod_eq_of_lt c.isLt])
  rw [hc]
  exact tree_ofNat _

/-- The stored block at the entry (p, q), before the code word is known to be below 16: the tree's choice times the
    row's scales summed against the selector's column. -/
private theorem pay1_apply_tree (v0 : Vec Ideal S256x64 .f32) (v18 : Vec Ideal S256x512 .i32) (v67 : Vec Ideal S64x512 .f32)
    (p : Fin 256) (q : Fin 512) :
    k0_pay1 v0 (k0_pay3 v18) (k0_pay4 v18) (k0_pay5 v18) (k0_pay6 v18) (k0_pay7 v18) (k0_pay8 v18) (k0_pay9 v18)
        (k0_pay10 v18) (k0_pay11 v18) (k0_pay12 (F := Ideal)) (k0_pay13 (F := Ideal)) v67 (ix2 p q)
      = tree (v18 (ix2 p q)) * ∑ b : Fin 64, v0 (ix2 p b) * v67 (ix2 b q) := by
  unfold k0_pay1
  rw [shapeCast_self]
  refine (truncf_apply (ψ := .bf16) _ bitsLt_bf16_f32 _).trans ?_
  refine (mulf_apply _ _ _).trans ?_
  refine congrArg₂ (· * ·) ?_ ?_
  · rfl
  · refine (matmul_zero_plain_apply _ (some .fp32) _ _ p q).trans ?_
    refine Finset.sum_congr rfl fun b _ => ?_
    rw [shapeCast_self]

/-- The stored block at the entry (p, q), the code word there below 16: the level it names times the row's scales
    summed against the selector's column. -/
theorem pay1_apply (v0 : Vec Ideal S256x64 .f32) (v18 : Vec Ideal S256x512 .i32) (v67 : Vec Ideal S64x512 .f32)
    (p : Fin 256) (q : Fin 512) (h : (v18 (ix2 p q)).toNat < 16) :
    k0_pay1 v0 (k0_pay3 v18) (k0_pay4 v18) (k0_pay5 v18) (k0_pay6 v18) (k0_pay7 v18) (k0_pay8 v18) (k0_pay9 v18)
        (k0_pay10 v18) (k0_pay11 v18) (k0_pay12 (F := Ideal)) (k0_pay13 (F := Ideal)) v67 (ix2 p q)
      = level (v18 (ix2 p q)) * ∑ b : Fin 64, v0 (ix2 p b) * v67 (ix2 b q) := by
  rw [pay1_apply_tree, tree_eq_level _ h]

end Cert.Lora

end
-- ==== Proof.Lora.Pay2.lean ====
/-
  The value stored as the output block, read at an entry.

  The stored value is the sum of two matrix products, each accumulated into zero: the tokens (256 × 4096) times the
  transposed scratch block (the scratch block is 256 × 4096, so its transpose is 4096 × 256), and the projected tokens
  (256 × 16) times the transposed low-rank factor (256 × 16, transposed 16 × 256). A transposed matrix read at (k, j) is
  the matrix at (j, k), so at the entry (r, j) the value is
      Σ_k x(r, k) · w(j, k)  +  Σ_ρ p(r, ρ) · b(j, ρ).
  A change of shape to the same shape is the identity.
-/
import proofs.«424216_j20675972563492_3_alg».proof.Proof.Lora.Spec
import proofs.«424216_j20675972563492_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lora

open Cert.KernelIdeal Cert.KernelIdeal.Gen Idealize.ShloMosaic Idealize.ShloMosaic.ValueIdx

/-- The product of an m×k matrix with a k×n matrix, accumulated into zero, read at an entry: the sum over the contracted
    coordinate of the products of the entries. At the extended reals; w is the well-formedness of the dimension numbers
    (axis 1 of the left operand contracted with axis 0 of the right, no batch axes). -/
private theorem matmul_zero_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) _ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The output block at the entry (r, j): the base product against row j of the scratch plus the low-rank product
    against row j of the factor. -/
theorem pay2_apply (v2 v4 : Vec Ideal S256x4096 .bf16) (v7 v9 : Vec Ideal S256x16 .bf16) (r j : Fin 256) :
    k0_pay2 v2 v4 v7 v9 (ix2 r j)
      = (∑ k : Fin 4096, v2 (ix2 r k) * v4 (ix2 j k)) + ∑ ρ : Fin 16, v7 (ix2 r ρ) * v9 (ix2 j ρ) := by
  unfold k0_pay2
  -- a sum of two arrays at an entry is the sum of the entries
  refine (addf_apply _ _ _).trans ?_
  refine congrArg₂ (· + ·) ?_ ?_
  · -- the base product; the right operand is a transpose, read at (k, j) as the operand at (j, k)
    refine (matmul_zero_plain_apply _ none _ _ r j).trans ?_
    refine Finset.sum_congr rfl fun k _ => ?_
    rw [shapeCast_self, transpose_ix2_apply]
  · -- the low-rank product, the same way
    refine (matmul_zero_plain_apply _ none _ _ r j).trans ?_
    refine Finset.sum_congr rfl fun ρ _ => ?_
    rw [shapeCast_self, transpose_ix2_apply, shapeCast_self]

end Cert.Lora

end
-- ==== Proof.Lora.KBody.lean ====
/-
  The kernel body's output block as a function of its six input blocks.
  The body stores the output block once, whole: the token-by-feature product of the tokens with the scratch (transposed) plus
  the rank-16 product. The scratch it reads was filled by the eight-trip loop, chunk by chunk; read back, it is one function
  of its index: at (j, k) the level of the code at (j, k) times Σ_b scale(j, b) · selector(b, k).
-/
import proofs.«424216_j20675972563492_3_alg».proof.Proof.Patched.KernelIdeal.Value
import proofs.«424216_j20675972563492_3_alg».proof.Proof.Lora.Spec
import proofs.«424216_j20675972563492_3_alg».proof.Proof.Lora.TripKI
import proofs.«424216_j20675972563492_3_alg».proof.Proof.Lora.Pay1
import proofs.«424216_j20675972563492_3_alg».proof.Proof.Lora.Pay2
import Idealize.ShloMosaic.Lib.ValueIdx
import Idealize.ShloMosaic.Lib.Pipeline.Value

set_option maxRecDepth 16384

noncomputable section

namespace Cert.Lora.K

open Cert.KernelIdeal Cert.KernelIdeal.Gen Cert.KernelIdeal.GenP Cert.KernelIdeal.Trip
open Idealize.ShloMosaic Idealize.ShloMosaic.TcCoe Idealize.ShloMosaic.ValueIdx Idealize.SL.Sem

/-- The offsets of a whole-buffer access are all zero. -/
theorem zero2 : (![0, 0] : Fin 2 → ℕ) = fun _ => 0 := by
  funext a; match a with | ⟨0, _⟩ => rfl | ⟨1, _⟩ => rfl

section AnyInstance

variable {F : FTy → Type} [FloatOps F]
variable (c : Dev nD) (i : grid0.Coords) (arg1 : Memref sig .tc .vmem S256x4096 .bf16) (harg1 : arg1.IsWhole) (arg2 : Memref sig .tc .vmem S256x4096 .i32) (harg2 : arg2.IsWhole) (arg3 : Memref sig .tc .vmem S256x64 .f32) (harg3 : arg3.IsWhole) (arg4 : Memref sig .tc .vmem S256x16 .bf16) (harg4 : arg4.IsWhole) (arg5 : Memref sig .tc .vmem S256x16 .bf16) (harg5 : arg5.IsWhole) (arg6 : Memref sig .tc .vmem S64x4096 .f32) (harg6 : arg6.IsWhole) (arg7 : Memref sig .tc .vmem S256x256 .f32) (harg7 : arg7.IsWhole) (arg8 : Memref sig .tc .vmem S256x4096 .bf16) (harg8 : arg8.IsWhole)
variable (x0 : Vec F S256x4096 .bf16) (x1 : Vec F S256x4096 .i32) (x2 : Vec F S256x64 .f32) (x3 x4 : Vec F S256x16 .bf16) (x5 : Vec F S64x4096 .f32)

/-- The pieces the loop leaves in the scratch, over the input blocks. -/
abbrev loopPieces : List (View.Piece (Elt F) S256x4096 .bf16) :=
  pb_k0_t1 (F := F) Variants.none c none i arg1 harg1 arg2 harg2 arg3 harg3 arg4 harg4 arg5 harg5 arg6 harg6 arg7 harg7 arg8 harg8 x2 (harg2.unread x1) (harg6.unread x5) k0_t1_loop.trips

/-- THE OUTPUT BLOCK: the body's second payload of the tokens, the scratch read back, the projection and B's block. -/
theorem out_eq :
    out0_A_6 (F := F) c i arg1 harg1 arg2 harg2 arg3 harg3 arg4 harg4 arg5 harg5 arg6 harg6 arg7 harg7 arg8 harg8 x0 x1 x2 x3 x4 x5
      = k0_pay2 x0 (View.canon (loopPieces c i arg1 harg1 arg2 harg2 arg3 harg3 arg4 harg4 arg5 harg5 arg6 harg6 arg7 harg7 arg8 harg8 x1 x2 x5)) x3 x4 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  rw [View.canon_unit_zero zero2]
  simp only [View.readAt_eq_ld, harg1.read_unread, harg3.read_unread, harg4.read_unread, harg5.read_unread,
    View.ld_unit_zero (S := S256x4096) zero2, View.ld_unit_zero (S := S256x64) zero2, View.ld_unit_zero (S := S256x16) zero2,
    View.readCov_eq_canon']
  exact congrArg (fun w => k0_pay2 x0 w x3 x4) (View.ld_unit_zero (S := S256x4096) zero2 inb_S256x4096_S256x4096_0_0 _)

/-- Every piece in the list of the trips before n is some trip's piece. -/
theorem mem_loop_iff_trip (v0 : Vec F S256x64 .f32) (X_arg2 : BufTy.Contents (Elt F) arg2.view.ty) (X_arg6 : BufTy.Contents (Elt F) arg6.view.ty) :
    ∀ (n : ℕ) (p : View.Piece (Elt F) S256x4096 .bf16),
      p ∈ pb_k0_t1 (F := F) Variants.none c none i arg1 harg1 arg2 harg2 arg3 harg3 arg4 harg4 arg5 harg5 arg6 harg6 arg7 harg7 arg8 harg8 v0 X_arg2 X_arg6 n →
      ∃ k : Fin k0_t1_loop.trips, p ∈ tripL_k0_t1 (F := F) Variants.none c none i arg1 harg1 arg2 harg2 arg3 harg3 arg4 harg4 arg5 harg5 arg6 harg6 arg7 harg7 arg8 harg8 v0 X_arg2 X_arg6 k
  | 0, p, hp => by simp [pb_k0_t1] at hp
  | n + 1, p, hp => by
    by_cases hn : n < k0_t1_loop.trips
    · have e := pb_k0_t1_succ (F := F) Variants.none c none i arg1 harg1 arg2 harg2 arg3 harg3 arg4 harg4 arg5 harg5 arg6 harg6 arg7 harg7 arg8 harg8 v0 X_arg2 X_arg6 ⟨n, hn⟩
      rw [show (⟨n, hn⟩ : Fin k0_t1_loop.trips).val + 1 = n + 1 from rfl] at e
      rw [e, List.mem_append] at hp
      rcases hp with hp | hp
      · exact ⟨⟨n, hn⟩, hp⟩
      · exact mem_loop_iff_trip v0 X_arg2 X_arg6 n p hp
    · rw [pb_k0_t1.eq_2] at hp
      unfold pb_k0_t1Step at hp
      rw [dif_neg hn] at hp
      exact mem_loop_iff_trip v0 X_arg2 X_arg6 n p hp

end AnyInstance

/-! ## At the ideal instance: the scratch as one function, and the output block entry by entry -/

section AtIdeal

variable (c : Dev nD) (i : grid0.Coords) (arg1 : Memref sig .tc .vmem S256x4096 .bf16) (harg1 : arg1.IsWhole) (arg2 : Memref sig .tc .vmem S256x4096 .i32) (harg2 : arg2.IsWhole) (arg3 : Memref sig .tc .vmem S256x64 .f32) (harg3 : arg3.IsWhole) (arg4 : Memref sig .tc .vmem S256x16 .bf16) (harg4 : arg4.IsWhole) (arg5 : Memref sig .tc .vmem S256x16 .bf16) (harg5 : arg5.IsWhole) (arg6 : Memref sig .tc .vmem S64x4096 .f32) (harg6 : arg6.IsWhole) (arg7 : Memref sig .tc .vmem S256x256 .f32) (harg7 : arg7.IsWhole) (arg8 : Memref sig .tc .vmem S256x4096 .bf16) (harg8 : arg8.IsWhole)
variable (x0 : Vec Ideal S256x4096 .bf16) (x1 : Vec Ideal S256x4096 .i32) (x2 : Vec Ideal S256x64 .f32) (x3 x4 : Vec Ideal S256x16 .bf16) (x5 : Vec Ideal S64x4096 .f32)

/-- The dequantised entry (j, k) of the block's weight rows, as the loop computes it. -/
def deq (x1 : Vec Ideal S256x4096 .i32) (x2 : Vec Ideal S256x64 .f32) (x5 : Vec Ideal S64x4096 .f32) (j : Fin 256) (k : Fin 4096) : EReal :=
  level (x1 (ix2 j k)) * ∑ b : Fin 64, x2 (ix2 j b) * x5 (ix2 b k)

/-- The same as a function of the scratch's index. -/
def deqAt (x1 : Vec Ideal S256x4096 .i32) (x2 : Vec Ideal S256x64 .f32) (x5 : Vec Ideal S64x4096 .f32) : S256x4096.Idx → EReal :=
  fun y => deq x1 x2 x5 (y 0) (y 1)

/-- Where entry (p, q) of trip k's chunk sits in the scratch: row p, column 512·k + q. -/
theorem chunk_emb (k : Fin k0_t1_loop.trips) (p : Fin 256) (q : Fin 512) (hq : 512 * k.val + q.val < 4096) :
    (Rect.unit (s := S256x4096) (k0_off1 k) S256x512.size (k0_off1_inb k)).emb (ix2 p q) = ix2 p ⟨512 * k.val + q.val, hq⟩ := by
  have e0 : k0_off1 k 0 = 0 := by rw [k0_off1_eq]; rfl
  have e1 : k0_off1 k 1 = 512 * k.val := by rw [k0_off1_eq]; rfl
  funext a
  refine Fin.ext ?_
  rw [Rect.emb_apply]
  match a with
  | ⟨0, _⟩ => show k0_off1 k 0 + 1 * p.val = p.val; omega
  | ⟨1, _⟩ => show k0_off1 k 1 + 1 * q.val = 512 * k.val + q.val; omega

/-- Likewise in the selector. -/
theorem sel_emb (k : Fin k0_t1_loop.trips) (b : Fin 64) (q : Fin 512) (hq : 512 * k.val + q.val < 4096) :
    (Rect.unit (s := S64x4096) (k0_off2 k) S64x512.size (k0_off2_inb k)).emb (ix2 b q) = ix2 b ⟨512 * k.val + q.val, hq⟩ := by
  have e0 : k0_off2 k 0 = 0 := by rw [k0_off2_eq]; rfl
  have e1 : k0_off2 k 1 = 512 * k.val := by rw [k0_off2_eq]; rfl
  funext a
  refine Fin.ext ?_
  rw [Rect.emb_apply]
  match a with
  | ⟨0, _⟩ => show k0_off2 k 0 + 1 * b.val = b.val; omega
  | ⟨1, _⟩ => show k0_off2 k 1 + 1 * q.val = 512 * k.val + q.val; omega

/-- One trip's chunk is the dequantised block at its columns. -/
theorem chunk_apply (hx1 : ∀ y, (x1 y).toNat < 16) (k : Fin k0_t1_loop.trips) (p : Fin 256) (q : Fin 512) :
    chunk (F := Ideal) x2 arg2 (harg2.unread x1) arg6 (harg6.unread x5) k (ix2 p q)
      = deqAt x1 x2 x5 ((Rect.unit (s := S256x4096) (k0_off1 k) S256x512.size (k0_off1_inb k)).emb (ix2 p q)) := by
  have hk : k.val < 8 := lt_of_lt_of_eq k.isLt trips_eq
  have hq : 512 * k.val + q.val < 4096 := by have := q.isLt; omega
  rw [chunk_emb k p q hq]
  unfold chunk
  have hcode : codesAt (F := Ideal) arg2 (harg2.unread x1) k (ix2 p q) = x1 (ix2 p ⟨512 * k.val + q.val, hq⟩) := by
    have e : codesAt (F := Ideal) arg2 (harg2.unread x1) k
        = View.ld x1 (Rect.unit (s := S256x4096) (k0_off1 k) S256x512.size (k0_off1_inb k)) := by
      show View.readAt (Elt Ideal) arg2.view
        (Rect.unit (s := S256x4096) (k0_off1 k) S256x512.size (k0_off1_inb k)).toLoadRect (harg2.unread x1) = _
      rw [View.readAt_eq_ld, harg2.read_unread]
    rw [e]
    show x1 ((Rect.unit (s := S256x4096) (k0_off1 k) S256x512.size (k0_off1_inb k)).emb (ix2 p q)) = _
    rw [chunk_emb k p q hq]
  have hsel : ∀ b : Fin 64, selAt (F := Ideal) arg6 (harg6.unread x5) k (ix2 b q) = x5 (ix2 b ⟨512 * k.val + q.val, hq⟩) := by
    intro b
    have e : selAt (F := Ideal) arg6 (harg6.unread x5) k
        = View.ld x5 (Rect.unit (s := S64x4096) (k0_off2 k) S64x512.size (k0_off2_inb k)) := by
      show View.readAt (Elt Ideal) arg6.view
        (Rect.unit (s := S64x4096) (k0_off2 k) S64x512.size (k0_off2_inb k)).toLoadRect (harg6.unread x5) = _
      rw [View.readAt_eq_ld, harg6.read_unread]
    rw [e]
    show x5 ((Rect.unit (s := S64x4096) (k0_off2 k) S64x512.size (k0_off2_inb k)).emb (ix2 b q)) = _
    rw [sel_emb k b q hq]
  rw [pay1_apply x2 _ _ p q (by rw [hcode]; exact hx1 _), hcode]
  show _ = level (x1 (ix2 p ⟨512 * k.val + q.val, hq⟩)) * ∑ b : Fin 64, x2 (ix2 p b) * x5 (ix2 b ⟨512 * k.val + q.val, hq⟩)
  exact congrArg _ (Finset.sum_congr rfl fun b _ => by rw [hsel b])

/-- THE SCRATCH READ BACK is the dequantised block, entry by entry. -/
theorem scratch_apply (hx1 : ∀ y, (x1 y).toNat < 16) (j : Fin 256) (k : Fin 4096) :
    View.canon (loopPieces (F := Ideal) c i arg1 harg1 arg2 harg2 arg3 harg3 arg4 harg4 arg5 harg5 arg6 harg6 arg7 harg7 arg8 harg8 x1 x2 x5) (ix2 j k) = deq x1 x2 x5 j k := by
  refine (View.canon_apply_of_pieces (deqAt x1 x2 x5) _ ?_ (ix2 j k) (scratch_cover _ _ _ _ _ _ _ _ _ _ _ _ _ _ _ _ _ _ _ _ _ _ _ _)).trans rfl
  intro p hp x
  obtain ⟨kk, hkk⟩ := mem_loop_iff_trip c i arg1 harg1 arg2 harg2 arg3 harg3 arg4 harg4 arg5 harg5 arg6 harg6 arg7 harg7 arg8 harg8 x2 (harg2.unread x1) (harg6.unread x5) _ p hp
  rw [tripL_eq] at hkk
  obtain rfl := List.mem_singleton.mp hkk
  obtain ⟨pp, qq, rfl⟩ : ∃ (pp : Fin 256) (qq : Fin 512), x = ix2 pp qq := ⟨x 0, x 1, eq_ix2 x⟩
  exact chunk_apply arg2 harg2 arg6 harg6 x1 x2 x5 hx1 kk pp qq

/-- THE OUTPUT BLOCK, entry (r, j): the tokens against the dequantised rows, plus the rank-16 product. -/
theorem out_apply (hx1 : ∀ y, (x1 y).toNat < 16) (r j : Fin 256) :
    out0_A_6 (F := Ideal) c i arg1 harg1 arg2 harg2 arg3 harg3 arg4 harg4 arg5 harg5 arg6 harg6 arg7 harg7 arg8 harg8 x0 x1 x2 x3 x4 x5 (ix2 r j)
      = (∑ k : Fin 4096, x0 (ix2 r k) * deq x1 x2 x5 j k) + ∑ ρ : Fin 16, x3 (ix2 r ρ) * x4 (ix2 j ρ) := by
  rw [out_eq, pay2_apply]
  exact congrArg (· + _) (Finset.sum_congr rfl fun k _ => by
    rw [scratch_apply c i arg1 harg1 arg2 harg2 arg3 harg3 arg4 harg4 arg5 harg5 arg6 harg6 arg7 harg7 arg8 harg8 x1 x2 x5 hx1 j k])

end AtIdeal

end Cert.Lora.K

end
-- ==== Proof.Lora.KReads.lean ====
/-
  Each input window's block at a grid point, read at an index, is the window's array read at the corresponding index of
  the array.

  The launch has six input windows over its 43 grid points. Three of them — the activations [256, 4096], the scaled
  projection [256, 16] and the 0/1 selector [64, 4096] — are their whole array at every point: block index (0, 0), so
  entry (r, k) of the block is entry (r, k) of the array. The other three — the codes [11008, 4096], the scales
  [11008, 64] and the second low-rank factor [11008, 16] — are cut into 43 blocks of 256 rows, and point t takes block
  (t, 0): entry (j, k) of the block is entry (256·t + j, k) of the array. On every axis an element of a block sits in
  the array at the block index times the block's size plus its own coordinate; the block indices are decided once per
  window over the whole grid.
-/
import proofs.«424216_j20675972563492_3_alg».proof.Proof.Gen.KernelIdeal.Frame.Runs
import proofs.«424216_j20675972563492_3_alg».proof.Proof.Lora.KCol
import Idealize.ShloMosaic.Lib.ValueIdx
import Idealize.ShloMosaic.Lib.Pipeline.Value

noncomputable section

namespace Cert.Lora.K

open Cert.KernelIdeal Cert.KernelIdeal.Gen Idealize.ShloMosaic Idealize.ShloMosaic.TcCoe Idealize.ShloMosaic.ValueIdx Idealize.SL.Sem

/-! ## The block indices over the grid -/

/-- Window 0 is its whole array at every point: block index (0, 0). -/
theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- Window 1 takes block (t, 0) at point t. -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- Window 2 takes block (t, 0) at point t. -/
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- Window 3 is its whole array at every point: block index (0, 0). -/
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4 takes block (t, 0) at point t. -/
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
/-- Window 5 is its whole array at every point: block index (0, 0). -/
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## The blocks read at an index -/

variable (m : (ℓ : Loc nD τ sig) → Buf (Elt Ideal) ℓ) (c : Dev nD) (t : Fin cfg0.N)

/-- The activations' block is the whole array: entry (r, k) is the array's entry (r, k). -/
theorem iblk0_apply (r : Fin 256) (k : Fin 4096) :
    (iblk m c 0 t : S256x4096.Idx → EReal) (ix2 r k) = (V m c main_v9 : S256x4096.Idx → EReal) (ix2 r k) := by
  obtain ⟨h0, h1⟩ := index0 t
  unfold iblk
  rw [View.read_apply]
  show V m c main_v9 _ = V m c main_v9 _
  congr 1
  funext a
  apply Fin.ext
  match a with
  | ⟨0, _⟩ => show win0_0.index t (0 : Fin 2) * 256 + 1 * r.val = r.val; rw [h0]; omega
  | ⟨1, _⟩ => show win0_0.index t (1 : Fin 2) * 4096 + 1 * k.val = k.val; rw [h1]; omega

/-- The codes' block at point t is rows 256·t … 256·t + 255: entry (j, k) is the array's entry (256·t + j, k). -/
theorem iblk1_apply (j : Fin 256) (k : Fin 4096) :
    (iblk m c 1 t : S256x4096.Idx → BitVec 32) (ix2 j k) = (V m c main_arg1 : S11008x4096.Idx → BitVec 32) (ix2 (col t j) k) := by
  obtain ⟨h0, h1⟩ := index1 t
  unfold iblk
  rw [View.read_apply]
  show V m c main_arg1 _ = V m c main_arg1 _
  congr 1
  funext a
  apply Fin.ext
  match a with
  | ⟨0, _⟩ => show win0_1.index t (0 : Fin 2) * 256 + 1 * j.val = 256 * t.val + j.val; rw [h0]; omega
  | ⟨1, _⟩ => show win0_1.index t (1 : Fin 2) * 4096 + 1 * k.val = k.val; rw [h1]; omega

/-- The scales' block at point t is rows 256·t … 256·t + 255: entry (j, b) is the array's entry (256·t + j, b). -/
theorem iblk2_apply (j : Fin 256) (b : Fin 64) :
    (iblk m c 2 t : S256x64.Idx → EReal) (ix2 j b) = (V m c main_arg2 : S11008x64.Idx → EReal) (ix2 (col t j) b) := by
  obtain ⟨h0, h1⟩ := index2 t
  unfold iblk
  rw [View.read_apply]
  show V m c main_arg2 _ = V m c main_arg2 _
  congr 1
  funext a
  apply Fin.ext
  match a with
  | ⟨0, _⟩ => show win0_2.index t (0 : Fin 2) * 256 + 1 * j.val = 256 * t.val + j.val; rw [h0]; omega
  | ⟨1, _⟩ => show win0_2.index t (1 : Fin 2) * 64 + 1 * b.val = b.val; rw [h1]; omega

/-- The scaled projection's block is the whole array: entry (r, ρ) is the array's entry (r, ρ). -/
theorem iblk3_apply (r : Fin 256) (ρ : Fin 16) :
    (iblk m c 3 t : S256x16.Idx → EReal) (ix2 r ρ) = (V m c main_v14 : S256x16.Idx → EReal) (ix2 r ρ) := by
  obtain ⟨h0, h1⟩ := index3 t
  unfold iblk
  rw [View.read_apply]
  show V m c main_v14 _ = V m c main_v14 _
  congr 1
  funext a
  apply Fin.ext
  match a with
  | ⟨0, _⟩ => show win0_3.index t (0 : Fin 2) * 256 + 1 * r.val = r.val; rw [h0]; omega
  | ⟨1, _⟩ => show win0_3.index t (1 : Fin 2) * 16 + 1 * ρ.val = ρ.val; rw [h1]; omega

/-- The second low-rank factor's block at point t is rows 256·t … 256·t + 255: entry (j, ρ) is the array's entry
    (256·t + j, ρ). -/
theorem iblk4_apply (j : Fin 256) (ρ : Fin 16) :
    (iblk m c 4 t : S256x16.Idx → EReal) (ix2 j ρ) = (V m c main_v15 : S11008x16.Idx → EReal) (ix2 (col t j) ρ) := by
  obtain ⟨h0, h1⟩ := index4 t
  unfold iblk
  rw [View.read_apply]
  show V m c main_v15 _ = V m c main_v15 _
  congr 1
  funext a
  apply Fin.ext
  match a with
  | ⟨0, _⟩ => show win0_4.index t (0 : Fin 2) * 256 + 1 * j.val = 256 * t.val + j.val; rw [h0]; omega
  | ⟨1, _⟩ => show win0_4.index t (1 : Fin 2) * 16 + 1 * ρ.val = ρ.val; rw [h1]; omega

/-- The selector's block is the whole array: entry (b, k) is the array's entry (b, k). -/
theorem iblk5_apply (b : Fin 64) (k : Fin 4096) :
    (iblk m c 5 t : S64x4096.Idx → EReal) (ix2 b k) = (V m c main_v8 : S64x4096.Idx → EReal) (ix2 b k) := by
  obtain ⟨h0, h1⟩ := index5 t
  unfold iblk
  rw [View.read_apply]
  show V m c main_v8 _ = V m c main_v8 _
  congr 1
  funext a
  apply Fin.ext
  match a with
  | ⟨0, _⟩ => show win0_5.index t (0 : Fin 2) * 64 + 1 * b.val = b.val; rw [h0]; omega
  | ⟨1, _⟩ => show win0_5.index t (1 : Fin 2) * 4096 + 1 * k.val = k.val; rw [h1]; omega

end Cert.Lora.K

end
-- ==== Proof.Lora.HostPrefix.lean ====
/-
  What the four arrays the kernel's one call reads hold when the call is entered, as functions of the argument arrays.

  Before the call the program prepares: the token array x narrowed to a 16-bit format; the low-rank factor B narrowed
  likewise; the projection (x · Aᵀ) · 2 narrowed likewise; and the 0/1 selector of shape [64, 4096] whose entry (b, k) is
  1 exactly when feature k lies in block b, that is when b = k / 64. On the extended reals a change of format is the
  identity, so the first two are x and B themselves, the third has entry (r, ρ) equal to (Σ_k x(r, k) · A(ρ, k)) · 2, and
  the fourth is the indicator of b = k / 64.
-/
import proofs.«424216_j20675972563492_3_alg».proof.Proof.Lora.Spec
import proofs.«424216_j20675972563492_3_alg».proof.Proof.Gen.KernelIdeal.Frame.Runs
import Idealize.ShloMosaic.Lib.ValueIdx
import Idealize.ShloMosaic.Lib.StableHlo.Run
import Idealize.ShloMosaic.Lib.StableHlo.Predicate
import Idealize.ShloMosaic.Lib.Pipeline.Value
import Idealize.ShloMosaic.Lib.ValueLayout
import Idealize.ShloMosaic.PureOps.Ideal.Laws

noncomputable section

open scoped BigOperators

namespace Cert.Lora.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The two narrowed arguments -/

/-- The token array narrowed to 16 bits is the token array: on the extended reals a change of format is the identity. -/
theorem V_x : (V m c main_v9 : S256x4096.Idx → EReal) = m ((c : Thread nD τ).loc main_arg0) := by
  have e : (V m c main_v9 : S256x4096.Idx → EReal)
      = truncf (F := Ideal) .bf16 (m ((c : Thread nD τ).loc main_arg0) : FVec Ideal S256x4096 .f32) bitsLt_bf16_f32 := by
    dsimp only [Gen.V]
    simp only [Gen.hostOps0, Gen.hostOps0_1, Gen.hostOps0_2, List.flatten_cons, List.flatten_nil, List.append_nil, List.cons_append, List.nil_append]
    after_results
  rw [e]
  rfl

/-- The low-rank factor B narrowed to 16 bits is B. -/
theorem V_b : (V m c main_v15 : S11008x16.Idx → EReal) = m ((c : Thread nD τ).loc main_arg4) := by
  have e : (V m c main_v15 : S11008x16.Idx → EReal)
      = truncf (F := Ideal) .bf16 (m ((c : Thread nD τ).loc main_arg4) : FVec Ideal S11008x16 .f32) bitsLt_bf16_f32 := by
    dsimp only [Gen.V]
    simp only [Gen.hostOps0, Gen.hostOps0_1, Gen.hostOps0_2, List.flatten_cons, List.flatten_nil, List.append_nil, List.cons_append, List.nil_append]
    after_results
  rw [e]
  rfl

/-! ## The projection: its operand indices, axis by axis -/

/-- The contraction has one axis … -/
theorem contr_rank : dot_S256x4096_S4096x16_S256x16_1_0_0_1_n_n.contr.rank = 1 := rfl
/-- … of 4096 positions. -/
theorem contr_size : dot_S256x4096_S4096x16_S256x16_1_0_0_1_n_n.contr.size ⟨0, by rw [contr_rank]; exact Nat.one_pos⟩ = 4096 := rfl

/-- The left operand's row is the result's row. -/
theorem lhs_axis0 (j : S256x16.Idx) (k : dot_S256x4096_S4096x16_S256x16_1_0_0_1_n_n.contr.Idx) :
    (dot_S256x4096_S4096x16_S256x16_1_0_0_1_n_n.lhsIdx j k 0).val = (j 0).val := by
  simp [DotDims.lhsIdx, dot_S256x4096_S4096x16_S256x16_1_0_0_1_n_n]
  rfl
/-- The left operand's column is the contraction position. -/
theorem lhs_axis1 (j : S256x16.Idx) (k : dot_S256x4096_S4096x16_S256x16_1_0_0_1_n_n.contr.Idx) :
    (dot_S256x4096_S4096x16_S256x16_1_0_0_1_n_n.lhsIdx j k 1).val = (k ⟨0, by rw [contr_rank]; exact Nat.one_pos⟩).val :=
  dot_S256x4096_S4096x16_S256x16_1_0_0_1_n_n.lhsIdx_val_of_single rfl j k
/-- The right operand's row is the contraction position. -/
theorem rhs_axis0 (j : S256x16.Idx) (k : dot_S256x4096_S4096x16_S256x16_1_0_0_1_n_n.contr.Idx) :
    (dot_S256x4096_S4096x16_S256x16_1_0_0_1_n_n.rhsIdx j k 0).val = (k ⟨0, by rw [contr_rank]; exact Nat.one_pos⟩).val :=
  dot_S256x4096_S4096x16_S256x16_1_0_0_1_n_n.rhsIdx_val_of_single rfl j k
/-- The right operand's column is the result's column. -/
theorem rhs_axis1 (j : S256x16.Idx) (k : dot_S256x4096_S4096x16_S256x16_1_0_0_1_n_n.contr.Idx) :
    (dot_S256x4096_S4096x16_S256x16_1_0_0_1_n_n.rhsIdx j k 1).val = (j 1).val := by
  simp [DotDims.rhsIdx, dot_S256x4096_S4096x16_S256x16_1_0_0_1_n_n]
  rfl

/-! ## The projection -/

/-- The projection array as the operations compose it: the product of x with the transpose of A, times the splat of 2,
    narrowed to 16 bits. -/
theorem V_xa_term : (V m c main_v14 : S256x16.Idx → EReal)
      = truncf (F := Ideal) .bf16 (mulf (F := Ideal) (φ := .f32) (Host.dotGeneral (F := Ideal) (φ₁ := .f32) (φ₂ := .f32) dot_S256x4096_S4096x16_S256x16_1_0_0_1_n_n none
          (m ((c : Thread nD τ).loc main_arg0) : FVec Ideal S256x4096 .f32)
          (transpose S4096x16 [1, 0] (m ((c : Thread nD τ).loc main_arg3) : FVec Ideal S16x4096 .f32) transposes_S16x4096_S4096x16_1_0 : FVec Ideal S4096x16 .f32))
          (broadcastInDim S256x16 ![] bcast_S_S256x16 (constant (F := Ideal) S_ .f32 0x40000000#32))) bitsLt_bf16_f32 := by
  dsimp only [Gen.V]
  simp only [Gen.hostOps0, Gen.hostOps0_1, Gen.hostOps0_2, List.flatten_cons, List.flatten_nil, List.append_nil, List.cons_append, List.nil_append]
  after_results

/-- Entry (r, ρ) of the projection array is (Σ_k x(r, k) · A(ρ, k)) · 2: the contraction's one axis re-indexed by its
    coordinate, the transpose of A read at (k, ρ) as A at (ρ, k). -/
theorem V_xa (r : Fin 256) (ρ : Fin 16) :
    (V m c main_v14 : S256x16.Idx → EReal) (ix2 r ρ)
      = Cert.Lora.proj (m ((c : Thread nD τ).loc main_arg0)) (m ((c : Thread nD τ).loc main_arg3)) r ρ * Cert.Lora.two := by
  rw [V_xa_term, truncf_apply, mulf_apply]
  refine congrArg₂ (· * ·) ?_ rfl
  simp only [Host.dotGeneral]
  rw [Ideal.dotGeneral_apply]
  unfold Cert.Lora.proj
  rw [← Equiv.sum_comp (contrEquiv1 dot_S256x4096_S4096x16_S256x16_1_0_0_1_n_n 4096 contr_rank contr_size).symm]
  refine Finset.sum_congr rfl fun k _ => ?_
  refine congrArg₂ (· * ·) ?_ ?_
  · refine congrArg _ (funext fun a => Fin.ext ?_)
    match a with
    | ⟨0, _⟩ => exact lhs_axis0 _ _
    | ⟨1, _⟩ => exact (lhs_axis1 _ _).trans (contrEquiv1_symm_val _ 4096 contr_rank contr_size k)
  · refine transpose_apply [1, 0] _ transposes_S16x4096_S4096x16_1_0 _ (ix2 ρ k) fun b => ?_
    match b with
    | ⟨0, _⟩ => exact ((rhs_axis0 _ _).trans (contrEquiv1_symm_val _ 4096 contr_rank contr_size k)).symm
    | ⟨1, _⟩ => exact (rhs_axis1 (ix2 r ρ) _).symm

/-! ## The selector: words -/

/-- The signed quotient of a small non-negative word by 64 is the quotient of the values. -/
theorem divsi_64 (u : ArithUnit) (w : BitVec 32) (hw : w.toNat < 2 ^ 31) : (IntOp.divsi u w 64#32).toNat = w.toNat / 64 := by
  have hcorner : ¬ IntOp.SDivCorner w 64#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (64#32 : BitVec 32).msb = false from by decide, BitVec.udiv_eq,
    BitVec.toNat_udiv, BitVec.toNat_ofNat]

/-- The sign word of a positive position below 4096 is 1. -/
theorem sign_pos_word (k : Nat) (hk0 : 0 < k) (hk : k < 4096) :
    (if BitVec.ofNat 32 k = 0 then (0 : BitVec 32) else if (BitVec.ofNat 32 k).msb then -1 else 1) = 1#32 := by
  have hne : ¬ BitVec.ofNat 32 k = 0 := by
    intro h
    have h' := congrArg BitVec.toNat h
    simp only [BitVec.toNat_ofNat] at h'
    change k % 2 ^ 32 = 0 at h'
    omega
  have hm : (BitVec.ofNat 32 k).msb = false := BitVec.msb_eq_false_iff_two_mul_lt.mpr (by rw [BitVec.toNat_ofNat]; omega)
  rw [if_neg hne, hm]
  rfl

/-- The condition under which floor division by 64 steps the signed quotient down — the operands' signs differ and the
    remainder is not 0 — fails at every position k < 4096: at k = 0 the remainder is 0, at k > 0 both signs are 1. -/
theorem floorDiv64_cond (k : Nat) (hk : k < 4096) :
    IntOp.andi
        (IntOp.cmpi .ne (if BitVec.ofNat 32 k = 0 then (0 : BitVec 32) else if (BitVec.ofNat 32 k).msb then -1 else 1)
          (if (64#32 : BitVec 32) = 0 then (0 : BitVec 32) else if (64#32 : BitVec 32).msb then -1 else 1))
        (IntOp.cmpi .ne (IntOp.remsi .host (BitVec.ofNat 32 k) 64#32) 0#32)
      = 0#1 := by
  refine eq_zero_of_ne_one fun h => ?_
  obtain ⟨h1, h2⟩ := IntOp.andi_eq_one.mp h
  have h1' := IntOp.cmpi_ne.mp h1
  have h2' := IntOp.cmpi_ne.mp h2
  by_cases hk0 : k = 0
  · subst hk0; exact h2' (by decide)
  · exact h1' ((sign_pos_word k (Nat.pos_of_ne_zero hk0) hk).trans (by decide))

/-- So floor division by 64 of the word of a position k < 4096 is the word of k / 64. -/
theorem floorDiv64_word (k : Nat) (hk : k < 4096) :
    Scalar.select
        (IntOp.andi
          (IntOp.cmpi .ne (if BitVec.ofNat 32 k = 0 then (0 : BitVec 32) else if (BitVec.ofNat 32 k).msb then -1 else 1)
            (if (64#32 : BitVec 32) = 0 then (0 : BitVec 32) else if (64#32 : BitVec 32).msb then -1 else 1))
          (IntOp.cmpi .ne (IntOp.remsi .host (BitVec.ofNat 32 k) 64#32) 0#32))
        (IntOp.subi (IntOp.divsi .host (BitVec.ofNat 32 k) 64#32) 1#32)
        (IntOp.divsi .host (BitVec.ofNat 32 k) 64#32)
      = BitVec.ofNat 32 (k / 64) := by
  have hkN : (BitVec.ofNat 32 k).toNat = k := by rw [BitVec.toNat_ofNat]; omega
  rw [floorDiv64_cond k hk, select_zero]
  apply BitVec.eq_of_toNat_eq
  rw [divsi_64 .host _ (by rw [hkN]; omega), hkN, BitVec.toNat_ofNat]
  omega

/-- Two words of numbers below 2³² are equal exactly when the numbers are. -/
theorem ofNat_inj_small (a b : Nat) (ha : a < 2 ^ 32) (hb : b < 2 ^ 32) : BitVec.ofNat 32 a = BitVec.ofNat 32 b ↔ a = b := by
  constructor
  · intro h
    have h' := congrArg BitVec.toNat h
    simp only [BitVec.toNat_ofNat] at h'
    omega
  · intro h; rw [h]

/-! ## The selector -/

/-- The feature positions' quotients toward −∞ by 64, as the program computes them: the signed quotient, stepped down by
    one where the operands' signs differ and the remainder is not 0. -/
def fdiv : IVec S4096 32 :=
  select
    (andi
      (cmpi .ne (signi (iotaInDim S4096 32 0)) (broadcastInDim S4096 ![] bcast_S_S4096 (signi (constantI S_ 32 64#32))))
      (cmpi .ne (Host.remsi (iotaInDim S4096 32 0) (broadcastInDim S4096 ![] bcast_S_S4096 (constantI S_ 32 64#32)))
        (broadcastInDim S4096 ![] bcast_S_S4096 (constantI S_ 32 0#32))))
    (subi (Host.divsi (iotaInDim S4096 32 0) (broadcastInDim S4096 ![] bcast_S_S4096 (constantI S_ 32 64#32)))
      (broadcastInDim S4096 ![] bcast_S_S4096 (constantI S_ 32 1#32)))
    (Host.divsi (iotaInDim S4096 32 0) (broadcastInDim S4096 ![] bcast_S_S4096 (constantI S_ 32 64#32)))

/-- At position k it is the word of k / 64. -/
theorem fdiv_apply (k : Fin 4096) : fdiv (Shape.Idx.ofFin k) = BitVec.ofNat 32 (k.val / 64) :=
  floorDiv64_word k.val k.isLt

/-- A comparison of words converted to a float, read at an index on the extended reals: the comparison's bit, read
    unsigned, as a real number. -/
theorem uitofp_cmpi_apply {s : Shape} (p : CmpIPredicate) (x y : IVec s 32) (i : s.Idx) :
    (uitofp (F := Ideal) .f32 (cmpi p x y) : FVec Ideal s .f32) i = (((IntOp.cmpi p (x i) (y i)).toNat : ℝ) : EReal) := rfl

/-- The selector array as the operations compose it: the block numbers 0 … 63 laid down the rows compared for equality with
    the features' quotients by 64 laid along the columns, the bit converted to a float. -/
theorem V_sel_term : (V m c main_v8 : S64x4096.Idx → EReal)
      = uitofp (F := Ideal) .f32
          (cmpi .eq
            (broadcastInDim S64x4096 ![0, 1] bcast_S64x1_S64x4096_0_1 (broadcastInDim S64x1 ![0] bcast_S64_S64x1_0 (iotaInDim S64 32 0)))
            (broadcastInDim S64x4096 ![0, 1] bcast_S1x4096_S64x4096_0_1 (broadcastInDim S1x4096 ![1] bcast_S4096_S1x4096_1 fdiv))) := by
  dsimp only [Gen.V]
  simp only [Gen.hostOps0, Gen.hostOps0_1, Gen.hostOps0_2, List.flatten_cons, List.flatten_nil, List.append_nil, List.cons_append, List.nil_append]
  after_results
  all_goals rfl

/-- Entry (b, k) of the selector is 1 when feature k lies in block b, that is b = k / 64, and 0 otherwise. -/
theorem V_sel (b : Fin 64) (k : Fin 4096) :
    (V m c main_v8 : S64x4096.Idx → EReal) (ix2 b k) = (if b = Cert.Lora.blockOf k then 1 else 0 : EReal) := by
  have hL : broadcastInDim S64x4096 ![0, 1] bcast_S64x1_S64x4096_0_1 (broadcastInDim S64x1 ![0] bcast_S64_S64x1_0 (iotaInDim S64 32 0)) (ix2 b k)
      = BitVec.ofNat 32 b.val :=
    (StableHlo.Predicate.bcast_of_col _ _ b k).trans ((StableHlo.Predicate.bcast_col1 _ _ b).trans (StableHlo.Predicate.iota_apply b))
  have hR : broadcastInDim S64x4096 ![0, 1] bcast_S1x4096_S64x4096_0_1 (broadcastInDim S1x4096 ![1] bcast_S4096_S1x4096_1 fdiv) (ix2 b k)
      = BitVec.ofNat 32 (k.val / 64) :=
    (StableHlo.Predicate.bcast_of_row _ _ b k).trans ((StableHlo.Predicate.bcast_row1 _ _ k).trans (fdiv_apply k))
  have hiff : BitVec.ofNat 32 b.val = BitVec.ofNat 32 (k.val / 64) ↔ b = Cert.Lora.blockOf k := by
    have hb := b.isLt
    have hk := k.isLt
    rw [ofNat_inj_small _ _ (by omega) (by omega)]
    exact ⟨fun h => Fin.ext h, fun h => congrArg Fin.val h⟩
  rw [V_sel_term, uitofp_cmpi_apply, hL, hR]
  by_cases h : b = Cert.Lora.blockOf k
  · rw [if_pos h, StableHlo.Predicate.cmpi_eq_iff.mpr (hiff.mpr h)]
    simp
  · rw [if_neg h, eq_zero_of_ne_one fun h1 => h (hiff.mp (StableHlo.Predicate.cmpi_eq_iff.mp h1))]
    simp

end Cert.Lora.Host

end
-- ==== Proof.Lora.KBlock.lean ====
/-
  What one grid point leaves in the output block. Grid point t (of 43) handles the 256 output features 256·t … 256·t + 255:
  it dequantises their weight rows into the scratch, chunk by chunk, and then stores, for every token r and every one of its
  features j,   Σ_k x(r, k) · W̃(j, k) + Σ_ρ p(r, ρ) · B(256·t + j, ρ),   where W̃(j, k) is the level of the code at
  (256·t + j, k) times Σ_b scale(256·t + j, b) · [b = k / 64], and p is the projection with the factor 2 folded in.
  The sum against the indicator keeps the one block scale, and the factor 2 moves out of the rank-16 sum: the entry is the
  specification's entry (r, 256·t + j).
-/
import proofs.«424216_j20675972563492_3_alg».proof.Proof.Patched.KernelIdeal.Value
import proofs.«424216_j20675972563492_3_alg».proof.Proof.Lora.Spec
import proofs.«424216_j20675972563492_3_alg».proof.Proof.Lora.TripKI
import proofs.«424216_j20675972563492_3_alg».proof.Proof.Lora.KCol
import proofs.«424216_j20675972563492_3_alg».proof.Proof.Lora.KBody
import proofs.«424216_j20675972563492_3_alg».proof.Proof.Lora.KReads
import proofs.«424216_j20675972563492_3_alg».proof.Proof.Lora.HostPrefix
import Idealize.ShloMosaic.Lib.ValueIdx
import Idealize.ShloMosaic.Lib.Pipeline.Value

set_option maxRecDepth 16384

noncomputable section

namespace Cert.Lora.K

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ)

/-- The codes' block at a grid point holds codes in 0 … 15 when the whole array does. -/
theorem block_codes_lt (c : Dev nD) (t : Fin cfg0.N)
    (hc : ∀ i : S11008x4096.Idx, ((m ((c : Thread nD τ).loc main_arg1) : S11008x4096.Idx → BitVec 32) i).toNat < 16)
    (y : S256x4096.Idx) : ((iblk m c 1 t : S256x4096.Idx → BitVec 32) y).toNat < 16 := by
  obtain ⟨j, k, rfl⟩ : ∃ (j : Fin 256) (k : Fin 4096), y = ix2 j k := ⟨y 0, y 1, eq_ix2 y⟩
  rw [iblk1_apply, V_main_arg1]
  exact hc _

/-- WHAT GRID POINT t LEAVES IN THE OUTPUT BLOCK, entry (r, j): the specification's entry (r, 256·t + j), when every code
    lies in 0 … 15. -/
theorem outsAt_apply (c : Dev nD) (t : Fin cfg0.N)
    (hc : ∀ i : S11008x4096.Idx, ((m ((c : Thread nD τ).loc main_arg1) : S11008x4096.Idx → BitVec 32) i).toNat < 16)
    (r j : Fin 256) :
    (outsAt0 m c t : S256x256.Idx → EReal) (ix2 r j)
      = Cert.Lora.entry (m ((c : Thread nD τ).loc main_arg0)) (m ((c : Thread nD τ).loc main_arg1))
          (m ((c : Thread nD τ).loc main_arg2)) (m ((c : Thread nD τ).loc main_arg3)) (m ((c : Thread nD τ).loc main_arg4))
          r (col t j) := by
  unfold outsAt0
  rw [out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t)
    (block_codes_lt m c t hc) r j]
  unfold Cert.Lora.entry
  refine congrArg₂ (· + ·) ?_ ?_
  · -- the base product: the selector sum keeps the one block scale
    refine Finset.sum_congr rfl fun k _ => ?_
    rw [iblk0_apply, Cert.Lora.Host.V_x]
    refine congrArg _ ?_
    unfold deq Cert.Lora.weight
    rw [iblk1_apply, V_main_arg1]
    refine congrArg _ ?_
    rw [Cert.Lora.sum_mul_indicator (fun b => (iblk m c 2 t : S256x64.Idx → EReal) (ix2 j b)) (Cert.Lora.blockOf k)
      (fun b => (iblk m c 5 t : S64x4096.Idx → EReal) (ix2 b k))
      (fun b => by rw [iblk5_apply]; exact Cert.Lora.Host.V_sel m c b k)]
    rw [iblk2_apply, V_main_arg2]
  · -- the low-rank path: the factor 2 leaves the rank-16 sum
    rw [← Cert.Lora.sum_scaled_mul]
    refine Finset.sum_congr rfl fun ρ _ => ?_
    rw [iblk3_apply, Cert.Lora.Host.V_xa, iblk4_apply, Cert.Lora.Host.V_b]

end Cert.Lora.K

end
-- ==== Proof.Lora.KArray.lean ====
/-
  From the blocks to the array. Grid point t (of 43) writes its [256, 256] output block back to columns 256·t … 256·t + 255 of
  the [256, 11008] result array, at block index (0, t). Entry (r, j) of what point t writes back is the specification's entry
  (r, 256·t + j), so what it writes back is block t of the specification's result function. The 43 blocks tile the array
  (11008 = 43 · 256; index (r, n) lies in the block of point n / 256), so the array ends holding that function, and the
  arguments end as they were.
-/
import proofs.«424216_j20675972563492_3_alg».proof.Proof.Lora.KBlock
import proofs.«424216_j20675972563492_3_alg».proof.Proof.Patched.KernelIdeal.Value
import proofs.«424216_j20675972563492_3_alg».proof.Proof.Lora.Spec
import Idealize.ShloMosaic.Lib.ValueIdx
import Idealize.ShloMosaic.Lib.Pipeline.Value

noncomputable section

namespace Cert.Lora.K

open Cert.KernelIdeal Cert.KernelIdeal.Gen Cert.KernelIdeal.GenP Cert.KernelIdeal.ValueP
open Idealize.ShloMosaic Idealize.ShloMosaic.TcCoe Idealize.ShloMosaic.ValueIdx Idealize.SL.Sem

variable (m : (ℓ : Loc nD τ sig) → Buf (Elt Ideal) ℓ) (ρ : Dev nD → PrngReg)

/-- The specification's result function of the argument arrays of core c. -/
abbrev resultOf (c : Dev nD) : S256x11008.Idx → EReal :=
  Cert.Lora.result (m ((c : Thread nD τ).loc main_arg0)) (m ((c : Thread nD τ).loc main_arg1))
    (m ((c : Thread nD τ).loc main_arg2)) (m ((c : Thread nD τ).loc main_arg3)) (m ((c : Thread nD τ).loc main_arg4))

/-- The printed index map of the output window, decided over the grid: grid point t writes the block at block index (0, t). -/
theorem out_index : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)

/-- Entry (r, j) of grid point t's block sits in the array at (r, 256·t + j). -/
theorem out_emb (t : Fin cfg0.N) (r j : Fin 256) :
    ((cfg0.win 6).blk t).view.emb (ix2 r j) = (ix2 r (col t j) : S256x11008.Idx) := by
  obtain ⟨e0, e1⟩ := out_index t
  funext a
  apply Fin.ext
  match a with
  | ⟨0, _⟩ => show win0_6.index t (0 : Fin 2) * 256 + 1 * r.val = r.val; omega
  | ⟨1, _⟩ => show win0_6.index t (1 : Fin 2) * 256 + 1 * j.val = 256 * t.val + j.val; omega

/-- WHAT GRID POINT t WRITES BACK is block t of the specification's result function, when every code lies in 0 … 15. -/
theorem flushed_block (c : Dev nD)
    (hc : ∀ i : S11008x4096.Idx, ((m ((c : Thread nD τ).loc main_arg1) : S11008x4096.Idx → BitVec 32) i).toNat < 16)
    (t : Fin cfg0.N) :
    (dats m 0 c).flushed 6 t = ((cfg0.win 6).blk t).view.read (Elt Ideal) (resultOf m c) := by
  rw [flushed6]
  funext y
  obtain ⟨r, j, rfl⟩ : ∃ (r j : Fin 256), y = ix2 r j := ⟨y 0, y 1, eq_ix2 y⟩
  show (outsAt0 m c t : S256x256.Idx → EReal) (ix2 r j) = resultOf m c (((cfg0.win 6).blk t).view.emb (ix2 r j))
  rw [outsAt_apply m c t hc r j, out_emb t r j]
  rfl

/-- An index of the array is in grid point t's block iff each coordinate is in the block's range on its axis. -/
theorem mem_block (t : Fin cfg0.N) (i : S256x11008.Idx) :
    i ∈ ((cfg0.win 6).blk t).view.set ↔ ∀ a : Fin 2, win0_6.index t a * S256x256.size a ≤ (i a).val
      ∧ (i a).val < win0_6.index t a * S256x256.size a + S256x256.size a := by
  show i ∈ ((View.whole main_v16).slice (win0_6.rect t)).set ↔ _
  rw [View.set_slice_whole, Rect.mem_set_unit]
  exact Iff.rfl

/-- THE BLOCKS TILE THE ARRAY: index (r, n) lies in the block of grid point n / 256, and every grid point writes back. -/
theorem covered (i : S256x11008.Idx) :
    ∃ t : Fin cfg0.N, (cfg0.win 6).flush t = true ∧ i ∈ ((cfg0.win 6).blk t).view.set := by
  have h0 : (i 0).val < 256 := (i 0).isLt
  have h1 : (i 1).val < 11008 := (i 1).isLt
  obtain ⟨t, ht⟩ : ∃ t : Fin cfg0.N, t.val = (i 1).val / 256 := ⟨⟨(i 1).val / 256, by rw [gridN]; omega⟩, rfl⟩
  obtain ⟨e0, e1⟩ := out_index t
  refine ⟨t, flush0_6 t, ?_⟩
  rw [mem_block]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 256 ≤ (i 1).val ∧ (i 1).val < win0_6.index t (1 : Fin 2) * 256 + 256
    omega

/-- THE ARRAY after the run is the specification's result function of the arguments, when every code lies in 0 … 15. -/
theorem final_array (c : Dev nD)
    (hc : ∀ i : S11008x4096.Idx, ((m ((c : Thread nD τ).loc main_arg1) : S11008x4096.Idx → BitVec 32) i).toNat < 16) :
    (dats m 0 c).arrAt 6 cfg0.N = resultOf m c :=
  (dats m 0 c).arrAt_eq_of_cover 6 (resultOf m c) (fun t _ => flushed_block m c hc t) covered

/-- THE KERNEL'S RUN: the result array ends at the specification's function of the arguments, which end unchanged. -/
theorem run (hc : ∀ (c : Dev nD) (i : S11008x4096.Idx), ((m ((c : Thread nD τ).loc main_arg1) : S11008x4096.Idx → BitVec 32) i).toNat < 16) :
    θ_run defs (onTc (τ := τ) (main (F := Ideal))) ⟨m, fun _ => 0, ρ⟩ fun r => ∀ c : Dev nD,
      r.2.mem ((c : Thread nD τ).loc main_v16)
          = Cert.Lora.result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_array m c (hc c)), (h c).2⟩) (run_blocks m ρ)

end Cert.Lora.K

end
-- ==== Proof.lean ====
/-
  A linear layer whose weight is stored in 4 bits — a code in 0 … 15 per entry naming one of sixteen fixed levels, and one
  scale per block of 64 input features — plus a rank-16 correction scaled by 2:
      out(r, n) = Σ_k x(r, k) · level(c(n, k)) · scale(n, k / 64)  +  2 · Σ_ρ (Σ_k x(r, k) · A(ρ, k)) · B(n, ρ).
  The kernel handles 256 output features per grid point: it rebuilds their weight rows chunk by chunk into a scratch (the
  level through a tree of selects on the code's four bits, the block scale through a product with a 0/1 selector), multiplies
  the tokens with the scratch, and adds the rank-16 product, into which the factor 2 was folded beforehand. The reference looks
  the levels up in a table, scales them block by block, and multiplies by 2 last. Over the extended reals the two are one
  function of the arguments as soon as every code lies in 0 … 15 (outside that range the table lookup clamps where the bit
  tree wraps): a sum against a 0/1 indicator keeps one term whatever the others are, and a factor that is a non-negative real
  moves across a finite sum whatever the terms are, so finiteness of the float inputs is never used.

  The three frames: each kernel program's from its run (Proof/Patched/…/Frame.lean), the reference's from its run read back
  (Proof/Lora/RefRun.lean). The idealisation rewrote nothing, so `preserves` is trivial. The value claim sets the kernel's
  run (Proof/Lora/KArray.lean: the result array is `Cert.Lora.result` of the arguments) beside the reference's
  (Proof/Lora/RefValue.lean: so is the reference's term), the codes' range read off the precondition (Proof/Lora/Pre.lean).
-/
import proofs.«424216_j20675972563492_3_alg».proof.Defs
import proofs.«424216_j20675972563492_3_alg».proof.Proof.Gen.Kernel
import proofs.«424216_j20675972563492_3_alg».proof.Proof.Gen.KernelIdeal
import proofs.«424216_j20675972563492_3_alg».proof.Proof.Gen.ReferenceIdeal
import proofs.«424216_j20675972563492_3_alg».proof.Proof.Gen.Pre_finite_inputs
import proofs.«424216_j20675972563492_3_alg».proof.Proof.Patched.Kernel.Frame
import proofs.«424216_j20675972563492_3_alg».proof.Proof.Patched.KernelIdeal.Frame
import proofs.«424216_j20675972563492_3_alg».proof.Proof.Lora.Pre
import proofs.«424216_j20675972563492_3_alg».proof.Proof.Lora.RefRun
import proofs.«424216_j20675972563492_3_alg».proof.Proof.Lora.RefValue
import proofs.«424216_j20675972563492_3_alg».proof.Proof.Lora.KArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2) (Cert.Lora.Ref.run (F := Ideal) m ρ)

/-- Both programs end with the result array at `Cert.Lora.result` of the (agreeing) arguments. -/
theorem algebraic : Cert.algebraic_KernelIdeal_ReferenceIdeal := by
  intro m ρ m' ρ' hpre hagree
  have hc : ∀ (c : Dev Cert.KernelIdeal.nD) (i : Cert.KernelIdeal.S11008x4096.Idx),
      ((m ((c : Thread Cert.KernelIdeal.nD Cert.KernelIdeal.τ).loc Cert.KernelIdeal.main_arg1)
        : Cert.KernelIdeal.S11008x4096.Idx → BitVec 32) i).toNat < 16 :=
    fun c i => Cert.Lora.codes_lt _ _ _ _ _ (hpre c) i
  refine ⟨_, Cert.Lora.K.run m ρ hc, ?_⟩
  refine (θ_run Cert.ReferenceIdeal.defs _ _).mono (fun _ h c => ⟨(h c).1.trans ?_, (h c).2⟩)
    (Cert.Lora.Ref.run (F := Ideal) m' ρ')
  rw [(hagree c).1, (hagree c).2.1, (hagree c).2.2.1, (hagree c).2.2.2.1, (hagree c).2.2.2.2]
  exact Cert.Lora.Ref.out_eq_result _ _ _ _ _ (hc c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
